-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 99
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000, .i1⟩
  | .hbm, ⟨12, _⟩ => ⟨S1600000, .f32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000, .f32⟩
  | .hbm, ⟨60, _⟩ => ⟨S1700000, .f32⟩
  | .hbm, ⟨61, _⟩ => ⟨S1700000x1, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S128, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54_0 : Ref sig .tc := ⟨.hbm, 78, rfl⟩
abbrev main_v54_1 : Ref sig .tc := ⟨.hbm, 79, rfl⟩
abbrev main_v54_2 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S1x128_S128 : S1x128.ShapeCasts S128
  bcast_S_S128 : S_.BroadcastsInDim S128 (![] : Fin 0 → Fin S128.rank)
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000, .i1⟩
  | .hbm, ⟨12, _⟩ => ⟨S1600000, .f32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000, .f32⟩
  | .hbm, ⟨60, _⟩ => ⟨S1700000, .f32⟩
  | .hbm, ⟨61, _⟩ => ⟨S1700000x1, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call2_cst : Ref sig .tc := ⟨.hbm, 80, rfl⟩
abbrev main_call2_v0 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibVariance.lean ====
/-
  The variance identity on the extended reals, for real data.

  For a finite family of real numbers `x i`, read as extended reals, with `n` its cardinality (nonzero), write
  `μ = (Σ_j x_j)·(1/n)` for the mean.  The mean of the squared deviations equals the mean of the squares less the
  square of the mean:

      (Σ_i (x_i − μ)·(x_i − μ))·(1/n) = (Σ_i x_i·x_i)·(1/n) − μ·μ .

  Every division by `n` is written as the product with the reciprocal `1/n` (which is what a division of an extended
  real by a nonzero real is).  Since every term is the image of a real number, both sides are images of real numbers:
  the finite sum of images is the image of the finite sum, and so are differences and products; the identity is then the
  usual one over the reals, which follows from expanding the square termwise,
  `(x_i − μ)² = x_i² − 2μ·x_i + μ²`, summing, and using `Σ_i μ² = n·μ²` with `μ = S/n`.
-/
import Mathlib.Data.EReal.Inv
import Mathlib.Algebra.BigOperators.Group.Finset.Basic
import Mathlib.Algebra.BigOperators.Ring.Finset
import Mathlib.Tactic.Ring
import Mathlib.Tactic.FieldSimp
import Idealize.ShloMosaic.PureOps.Ideal

noncomputable section

namespace Cert.Bridge

/-- A finite sum of images of real numbers in the extended reals is the image of the real sum. -/
theorem coe_finset_sum {ι : Type} (s : Finset ι) (f : ι → ℝ) :
    (∑ i ∈ s, ((f i : ℝ) : EReal)) = ((∑ i ∈ s, f i : ℝ) : EReal) := by
  classical
  refine Finset.induction_on s (by simp) ?_
  intro a t ha ih
  rw [Finset.sum_insert ha, Finset.sum_insert ha, ih, EReal.coe_add]

/-- The variance identity over the reals: with `n` the number of terms and `S` their sum, the sum of the squared
    deviations from `S/n`, divided by `n`, is the sum of the squares divided by `n`, less `(S/n)²`. -/
theorem var_identity_real {ι : Type} [Fintype ι] (x : ι → ℝ) (n : ℝ) (hn : n ≠ 0)
    (hcard : (Fintype.card ι : ℝ) = n) :
    (∑ i, (x i - (∑ j, x j) * (1 / n)) * (x i - (∑ j, x j) * (1 / n))) * (1 / n)
      = (∑ i, x i * x i) * (1 / n) - ((∑ j, x j) * (1 / n)) * ((∑ j, x j) * (1 / n)) := by
  set S : ℝ := ∑ j, x j with hS
  set μ : ℝ := S * (1 / n) with hμ
  have hterm : ∀ i, (x i - μ) * (x i - μ) = x i * x i - 2 * μ * x i + μ * μ := fun i => by ring
  have hsum : (∑ i, (x i - μ) * (x i - μ)) = (∑ i, x i * x i) - 2 * μ * S + n * (μ * μ) := by
    rw [Finset.sum_congr rfl (fun i _ => hterm i), Finset.sum_add_distrib, Finset.sum_sub_distrib,
      ← Finset.mul_sum, Finset.sum_const, Finset.card_univ, nsmul_eq_mul, hcard]
  rw [hsum, hμ]
  field_simp
  ring

/-- The variance identity on the extended reals, for real data: the mean of the squared deviations from the mean is
    the mean of the squares less the square of the mean, each division by `n` being the product with `1/n`. -/
theorem var_identity {ι : Type} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hS : (∑ j, (x j : EReal)) = ((∑ j, x j : ℝ) : EReal) := coe_finset_sum _ _
  have hQ : (∑ i, (x i : EReal) * (x i : EReal)) = ((∑ i, x i * x i : ℝ) : EReal) := by
    exact (Finset.sum_congr rfl (fun i _ => (EReal.coe_mul (x i) (x i)).symm)).trans
      (coe_finset_sum Finset.univ (fun i => x i * x i))
  have hD : (∑ i, ((x i : EReal) - ((∑ j, x j : ℝ) : EReal) * ((1 / n : ℝ) : EReal))
          * ((x i : EReal) - ((∑ j, x j : ℝ) : EReal) * ((1 / n : ℝ) : EReal)))
      = ((∑ i, (x i - (∑ j, x j) * (1 / n)) * (x i - (∑ j, x j) * (1 / n)) : ℝ) : EReal) := by
    refine (Finset.sum_congr rfl (fun i _ => ?_)).trans
      (coe_finset_sum Finset.univ (fun i => (x i - (∑ j, x j) * (1 / n)) * (x i - (∑ j, x j) * (1 / n))))
    rw [← EReal.coe_mul, ← EReal.coe_sub, ← EReal.coe_mul]
  rw [hS, hD, hQ, ← EReal.coe_mul, ← EReal.coe_mul, ← EReal.coe_mul, ← EReal.coe_mul, ← EReal.coe_sub,
    var_identity_real x n hn hcard]

end Cert.Bridge

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.Spec.lean ====
/-
  The mathematics of the layer, over the extended reals, with no program in sight.

  A graph-convolution layer followed by batch normalisation over the 100000 nodes. With `h = x · W` (a 100000 × 128
  matrix, entry (p, q) the sum over k of x(p, k) · W(k, q)), an aggregate `agg` of rows of `h` (its shape is all that
  matters here), a bias row `b`:

      a(p, q)    = max (agg(p, q) + b(q)) 0                      the activation
      mean(q)    = (Σ_p a(p, q)) / 100000
      out(p, q)  = (a(p, q) − mean(q)) · s(q) · γ(q) + β(q)

  where the scale `s(q)` is written two ways. One program forms the variance as the mean of the squares less the square
  of the mean, clamps it at zero from below, and multiplies by the reciprocal square root of (variance + ε); the other
  forms it as the mean of the squared deviations from the mean and divides by the square root of (variance + ε). For
  REAL activations the two variances are one number (the variance identity), it is not negative (a mean of squares), so
  the clamp does nothing, and (variance + ε) is a positive real, where multiplying by the reciprocal root is dividing
  by the root. That is `outK_eq_outR`.
-/
import Idealize.ShloMosaic.PureOps.Ideal
import Idealize.ShloMosaic.Lib.ValueIdx
import proofs.«145998_j90606630076672_1_alg».proof.Proof.LibVariance
import proofs.«145998_j90606630076672_1_alg».proof.Proof.LibIdealReal

noncomputable section

namespace Cert.Gcn

open Idealize.ShloMosaic Idealize.ShloMosaic.ValueIdx

/-- The node-feature matrix's shape, a feature vector's, and a feature row's. -/
abbrev SN : Shape := ⟨2, ![100000, 128]⟩
abbrev SW : Shape := ⟨2, ![128, 128]⟩
abbrev SV : Shape := ⟨1, ![128]⟩
abbrev SR : Shape := ⟨2, ![1, 128]⟩

/-- Every entry is (the image of) a real number. -/
def AllReal {S : Shape} (v : S.Idx → EReal) : Prop := ∀ i, ∃ r : ℝ, v i = (r : EReal)

/-- The float words the programs write: zero, the node count 100000 and the batch-norm ε. -/
def zeroF : EReal := Ideal.ofBits .f32 0x00000000#32
def cntF : EReal := Ideal.ofBits .f32 0x47C35000#32
def epsF : EReal := Ideal.ofBits .f32 0x3727C5AC#32

theorem zeroF_eq : zeroF = 0 := by
  exact Ideal.ofBits_zero_f32

/-- The node count's word is the real number 100000. -/
theorem cntF_eq : cntF = ((100000 : ℝ) : EReal) := by
  -- sign 0, exponent field 143, fraction 4411392: (2^23 + 4411392) · 2^(143 − 127 − 23) = 12800000 / 2^7 = 100000
  unfold cntF
  simp [Ideal.ofBits, Ideal.ieee, -EReal.coe_mul]
  norm_num

/-- ε's word is a positive real. -/
theorem epsF_pos : ∃ e : ℝ, 0 < e ∧ epsF = (e : EReal) := by
  -- sign 0, exponent field 110, fraction 2606508: (2^23 + 2606508) · 2^(110 − 127 − 23) = 10995116 · 2^(−40), positive
  refine ⟨(10995116 : ℝ) * (2 : ℝ) ^ (-40 : ℤ), by positivity, ?_⟩
  unfold epsF
  simp [Ideal.ofBits, Ideal.ieee, -EReal.coe_mul]

/-- `h = x · W`, entry by entry. -/
def hmat (x : SN.Idx → EReal) (w : SW.Idx → EReal) : SN.Idx → EReal :=
  fun i => ∑ k : Fin 128, x (ix2 (i 0) k) * w (ix2 k (i 1))

theorem hmat_real (x : SN.Idx → EReal) (w : SW.Idx → EReal) (hx : AllReal x) (hw : AllReal w) : AllReal (hmat x w) := by
  intro i
  choose rx hrx using hx
  choose rv hrv using hw
  refine ⟨∑ k : Fin 128, rx (ix2 (i 0) k) * rv (ix2 k (i 1)), ?_⟩
  unfold hmat
  rw [← IdealReal.coe_sum]
  refine Finset.sum_congr rfl (fun k _ => ?_)
  rw [hrx, hrv, EReal.coe_mul]

/-- The activation, from the aggregate and the bias (a number per column). -/
def act (agg : SN.Idx → EReal) (b : Fin 128 → EReal) (p : Fin 100000) (q : Fin 128) : EReal :=
  max (agg (ix2 p q) + b q) zeroF

theorem act_real (agg : SN.Idx → EReal) (b : Fin 128 → EReal) (ha : AllReal agg) (hb : ∀ q, ∃ r : ℝ, b q = (r : EReal))
    (p : Fin 100000) (q : Fin 128) : ∃ r : ℝ, act agg b p q = (r : EReal) := by
  obtain ⟨ra, hra⟩ := ha (ix2 p q)
  obtain ⟨rb, hrb⟩ := hb q
  refine ⟨max (ra + rb) 0, ?_⟩
  unfold act
  rw [hra, hrb, zeroF_eq, ← EReal.coe_add, ← EReal.coe_zero, IdealReal.max_coe]

/-- Column sums of the activations and of their squares, the mean, and the variance both ways. -/
def colSum (a : Fin 100000 → Fin 128 → EReal) (q : Fin 128) : EReal := ∑ p : Fin 100000, a p q
def colSqSum (a : Fin 100000 → Fin 128 → EReal) (q : Fin 128) : EReal := ∑ p : Fin 100000, a p q * a p q
/-- a column sum over the node count -/
def meanS (s : EReal) : EReal := Ideal.div s cntF
/-- mean of squares less squared mean, clamped at zero, from the column's sum of squares and its sum -/
def varS (sq s : EReal) : EReal := max (Ideal.div sq cntF - meanS s * meanS s) zeroF
def mean (a : Fin 100000 → Fin 128 → EReal) (q : Fin 128) : EReal := meanS (colSum a q)
def varK (a : Fin 100000 → Fin 128 → EReal) (q : Fin 128) : EReal := varS (colSqSum a q) (colSum a q)
/-- mean of squared deviations -/
def varR (a : Fin 100000 → Fin 128 → EReal) (q : Fin 128) : EReal :=
  Ideal.div (∑ p : Fin 100000, (a p q - mean a q) * (a p q - mean a q)) cntF

/-- One entry's normalisation: less the mean, times the reciprocal square root of (variance + ε), times γ, plus β. -/
def affine (a mu v g b : EReal) : EReal := (a - mu) * Ideal.rsqrt (v + epsF) * g + b
/-- The normalised output, the scale as a product with the reciprocal square root of the clamped variance. -/
def outK (a : Fin 100000 → Fin 128 → EReal) (g b : EReal) (p : Fin 100000) (q : Fin 128) : EReal :=
  affine (a p q) (mean a q) (varK a q) g b
/-- The normalised output, the scale as a quotient by the square root of the variance. -/
def outR (a : Fin 100000 → Fin 128 → EReal) (g b : EReal) (p : Fin 100000) (q : Fin 128) : EReal :=
  Ideal.div (a p q - mean a q) (Ideal.sqrt (varR a q + epsF)) * g + b

/-- For real activations the two outputs are one number. -/
theorem outK_eq_outR (a : Fin 100000 → Fin 128 → EReal) (ha : ∀ p q, ∃ r : ℝ, a p q = (r : EReal))
    (g b : EReal) (p : Fin 100000) (q : Fin 128) : outK a g b p q = outR a g b p q := by
  choose r hr using ha
  obtain ⟨e, he, hee⟩ := epsF_pos
  have hn : (100000 : ℝ) ≠ 0 := by norm_num
  have hcard : (Fintype.card (Fin 100000) : ℝ) = (100000 : ℝ) := by
    rw [Fintype.card_fin]; norm_num
  -- the column of real activations; its mean m and its variance V, over the reals
  have hid := Cert.Bridge.var_identity_real (fun i => r i q) 100000 hn hcard
  set m : ℝ := (∑ j, r j q) * (1 / 100000) with hm
  set V : ℝ := (∑ i, (r i q - m) * (r i q - m)) * (1 / 100000) with hVdef
  have hV : 0 ≤ V := mul_nonneg (Finset.sum_nonneg fun i _ => mul_self_nonneg _) (by norm_num)
  -- the mean is the image of m
  have hmean : mean a q = (m : EReal) := by
    unfold mean meanS colSum
    rw [cntF_eq, Ideal.div_coe hn]
    simp only [hr]
    rw [Cert.Bridge.coe_finset_sum, ← EReal.coe_mul]
  -- the mean of the squared deviations is the image of V
  have hvarR : varR a q = (V : EReal) := by
    unfold varR
    rw [hmean, cntF_eq, Ideal.div_coe hn]
    have hterm : ∀ i, (a i q - (m : EReal)) * (a i q - (m : EReal)) = (((r i q - m) * (r i q - m) : ℝ) : EReal) :=
      fun i => by rw [hr, ← EReal.coe_sub, ← EReal.coe_mul]
    simp only [hterm]
    rw [Cert.Bridge.coe_finset_sum, ← EReal.coe_mul]
  -- the mean of the squares less the squared mean is the same number, and the clamp at zero leaves it
  have hvarK : varK a q = (V : EReal) := by
    unfold varK varS
    rw [show meanS (colSum a q) = (m : EReal) from hmean, cntF_eq, Ideal.div_coe hn, zeroF_eq]
    unfold colSqSum
    have hterm : ∀ i, a i q * a i q = ((r i q * r i q : ℝ) : EReal) := fun i => by rw [hr, ← EReal.coe_mul]
    simp only [hterm]
    rw [Cert.Bridge.coe_finset_sum, ← EReal.coe_mul, ← EReal.coe_mul, ← EReal.coe_sub, ← hid]
    exact max_eq_left (EReal.coe_nonneg.mpr hV)
  unfold outK outR affine
  rw [hmean, hvarK, hvarR, hee, hr p q, ← EReal.coe_add]
  have hpos : 0 < V + e := by linarith
  have hsq : Real.sqrt (V + e) ≠ 0 := (Real.sqrt_pos.mpr hpos).ne'
  rw [Ideal.rsqrt_coe, if_neg (not_lt.mpr hpos.le), if_neg hpos.ne', Ideal.sqrt_coe, if_neg (not_lt.mpr hpos.le),
    Ideal.div_coe hsq, one_div]

end Cert.Gcn

end
-- ==== Proof.Finite.lean ====
/-
  What the precondition says: the programs' float inputs hold real numbers. The precondition is a conjunction of five
  tests "every |entry| is below +∞", one per float input; an extended real whose absolute value is below +∞ is
  neither infinity, so it is (the image of) a real number. Only x, W and the bias are needed downstream.
-/
import proofs.«145998_j90606630076672_1_alg».proof.Pre_finite_inputs
import proofs.«145998_j90606630076672_1_alg».proof.Proof.Gen.Pre_finite_inputs
import proofs.«145998_j90606630076672_1_alg».proof.Proof.Spec
import Idealize.ShloMosaic.Lib.ReduceAll

noncomputable section

namespace Cert.Gcn

open Idealize.ShloMosaic Idealize.ShloMosaic.ValueIdx
open Cert.Pre_finite_inputs

/-- The rank-0 shape has a single index. -/
private instance subsingleton_scalar_idx : Subsingleton S_.Idx := ⟨fun a b => funext fun d => d.elim0⟩

/-- The word 0x7F800000 (sign 0, exponent all ones, fraction 0) denotes +∞. -/
private theorem inf_word : Ideal.ofBits .f32 0x7F800000#32 = (⊤ : EReal) := by
  simp [Ideal.ofBits, Ideal.ieee]

/-- An extended real whose absolute value max x (-x) lies strictly below +∞ is neither infinity, hence a real. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- One "all |entries| below +∞" test that came out true: every entry of the array is a real. -/
private theorem allReal_of_test {S : Shape} {axes : List (Fin S.rank)} (hb : S_.BroadcastsInDim S (![] : Fin 0 → Fin S.rank))
    (hr : S.ReducesTo axes S_) (hu : 0 < S_.numel) (x : FVec Ideal S .f32) (init : IVec S_ 1) (j : S_.Idx)
    (e : Host.reduce IntOp.andi
          (cmpf .olt (Host.absf x) (broadcastInDim S ![] hb (constant (F := Ideal) S_ .f32 0x7F800000#32))) init hr hu j = 1#1) :
    AllReal (S := S) x := by
  intro i
  have hi := Host.reduce_andi_all _ init hr hu j e i
  have hi' : Ideal.cmp .olt (max (x i) (-(x i))) (Ideal.ofBits .f32 0x7F800000#32) = 1#1 := hi
  rw [inf_word] at hi'
  refine real_of_abs_lt_top (x i) ?_
  by_contra hn
  simp [Ideal.cmp, hn] at hi'

/-- If the finiteness test of the six inputs is all ones, then x, W and the bias are real entry by entry. -/
theorem real_of_fn (x0 : FVec Ideal S100000x128 .f32) (x1 : IVec S2x1600000 32) (x2 : FVec Ideal S128x128 .f32)
    (x3 x4 x5 : FVec Ideal S128 .f32)
    (h : Cert.Pre_finite_inputs.fn (F := Ideal) x0 x1 x2 x3 x4 x5 = fun _ => 1#1) :
    AllReal (S := SN) x0 ∧ AllReal (S := SW) x2 ∧ AllReal (S := SV) x3 := by
  have h0 := congrFun h ValueIdx.ix0
  dsimp only [Cert.Pre_finite_inputs.fn, Cert.Pre_finite_inputs.fn_part1] at h0
  -- the result is ((((t0 ∧ t2) ∧ t3) ∧ t4) ∧ t5): peel the conjunctions from the outside in
  obtain ⟨h0123, _⟩ := IntOp.andi_eq_one.1 h0
  obtain ⟨h012, _⟩ := IntOp.andi_eq_one.1 h0123
  obtain ⟨h01, t3⟩ := IntOp.andi_eq_one.1 h012
  obtain ⟨t0, t2⟩ := IntOp.andi_eq_one.1 h01
  exact ⟨allReal_of_test _ _ _ x0 _ _ t0, allReal_of_test _ _ _ x2 _ _ t2, allReal_of_test _ _ _ x3 _ _ t3⟩

end Cert.Gcn

end
-- ==== Proof.RefRun.lean ====
/-
  The reference program's run — every weakly fair execution ends with the result at the operations' composed term of
  the arguments, the arguments unchanged — and that term one operation at a time, each stage read at an index.
-/
import proofs.«145998_j90606630076672_1_alg».proof.Proof.RefRunGen
import proofs.«145998_j90606630076672_1_alg».proof.Proof.RefReadGen
-- ==== Proof.LibGather.lean ====
/-
  Two gathers read at an index, and the words of a wrapped row number. What `x[idx]` lowers to when `idx` is a flat
  array of `E` row numbers reshaped to one column `[E, 1]`: a `stablehlo.gather` whose start index map names operand
  axis 0, whose index vector lies along axis 1 of the start indices and whose slice is one element of a flat operand
  `[N]` (result `[E]`) or one whole row of a matrix `[N, D]` (result `[E, D]`, the row along the one offset axis). Result
  element `e` (or `(e, k)`) is the operand at the row number `idx[e, 0]`, read as a signed integer and clamped into
  `[0, N − 1]` as StableHLO clamps every start index: a negative word reads row 0, a word past the end reads row
  `N − 1`. The column `k` passes through untouched. Then the words: the index wrap `x < 0 ? x + n : x` leaves a
  non-negative word alone, and a 32-bit word reads as the natural number `g < 2³¹` exactly when it is `g`'s word.
-/
import Idealize.ShloMosaic.PureOps.Ideal
import Idealize.ShloMosaic.PureOps.Contract
import Idealize.ShloMosaic.Lib.ValueIdx

noncomputable section

namespace Cert.LibGather

open Idealize.ShloMosaic Idealize.ShloMosaic.ValueIdx

/-! ## A flat operand: one element per row number -/

section Vec
variable {α : Type}

/-- The dimension numbers of an element gather: no offset axes, operand axis 0 collapsed and the one the single index
    component names, the index vector along axis 1 of the start indices, slices of one element. -/
abbrev vecGatherDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

/-- Result element `e` reads its start index at `[e, 0]`: its batch coordinate, and component 0 of the index vector. -/
private theorem vec_siIdx {N E : Nat}
    (wf : GatherDims.WF (⟨1, ![N]⟩ : Shape) (⟨2, ![E, 1]⟩ : Shape) (⟨1, ![E]⟩ : Shape) [] [0] [] [0] [] 1 ![1])
    (e : Fin E) (c : Fin (vecGatherDims N E wf).startIndexMap.length) :
    (vecGatherDims N E wf).siIdx (ix1 e) c = ix2 e (0 : Fin 1) := by
  have hc : c.val = 0 := Nat.lt_one_iff.mp c.isLt
  funext b; refine Fin.ext ?_
  match b with
  | ⟨0, _⟩ => rfl
  | ⟨1, _⟩ => exact hc

/-- On the operand's one axis the slice starts at row `e`'s index word, read signed and clamped into `[0, N − 1]`. -/
private theorem vec_start {N E w : Nat}
    (wf : GatherDims.WF (⟨1, ![N]⟩ : Shape) (⟨2, ![E, 1]⟩ : Shape) (⟨1, ![E]⟩ : Shape) [] [0] [] [0] [] 1 ![1])
    (idx : IVec (⟨2, ![E, 1]⟩ : Shape) w) (e : Fin E) :
    (vecGatherDims N E wf).start (ix1 e) idx 0 = min (idx (ix2 e (0 : Fin 1))).toInt.toNat (N - 1) := by
  unfold GatherDims.start
  rw [dif_pos (show (0 : Fin 1) ∈ (vecGatherDims N E wf).startIndexMap from List.mem_singleton.mpr rfl), vec_siIdx]
  rfl

/-- THE ELEMENT GATHER AT `e`: the operand at the row number `idx[e, 0]`, read signed and clamped into `[0, N − 1]`. -/
theorem vecGather_apply {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vec_start]
  rfl

end Vec

/-! ## A matrix operand: one whole row per row number -/

section Row
variable {α : Type}

/-- The dimension numbers of a row gather: result axis 1 is the offset axis (operand axis 1, taken whole), operand axis 0
    is collapsed and the one the single index component names, the index vector lies along axis 1 of the start indices,
    slices of one row. -/
abbrev rowGatherDims (N D E : Nat)
    (wf : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) where
  offsetDims := [1]
  collapsedSliceDims := [0]
  operandBatchingDims := []
  startIndicesBatchingDims := []
  startIndexMap := [0]
  indexVectorDim := 1
  sliceSizes := ![1, D]
  wf := wf

/-- Result element `(e, k)` reads its start index at `[e, 0]`: its one batch coordinate `e`, and component 0 of the index
    vector; the column `k` plays no part. -/
private theorem row_siIdx {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) (c : Fin (rowGatherDims N D E wf).startIndexMap.length) :
    (rowGatherDims N D E wf).siIdx (ix2 e k) c = ix2 e (0 : Fin 1) := by
  have hc : c.val = 0 := Nat.lt_one_iff.mp c.isLt
  funext b; refine Fin.ext ?_
  match b with
  | ⟨0, _⟩ => rfl
  | ⟨1, _⟩ => exact hc

/-- On operand axis 0 the slice starts at row `e`'s index word, read signed and clamped into `[0, N − 1]`. -/
private theorem row_start_zero {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (e : Fin E) (k : Fin D) :
    (rowGatherDims N D E wf).start (ix2 e k) idx 0 = min (idx (ix2 e (0 : Fin 1))).toInt.toNat (N - 1) := by
  unfold GatherDims.start
  rw [dif_pos (show (0 : Fin 2) ∈ (rowGatherDims N D E wf).startIndexMap from List.mem_singleton.mpr rfl), row_siIdx]
  rfl

/-- Operand axis 1 is not named by the index vector: the slice starts at 0 there. -/
private theorem row_start_one {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (j : (⟨2, ![E, D]⟩ : Shape).Idx) :
    (rowGatherDims N D E wf).start j idx 1 = 0 := by
  unfold GatherDims.start
  rw [dif_neg (show ¬ (1 : Fin 2) ∈ (rowGatherDims N D E wf).startIndexMap from
    (by decide : ¬ (1 : Fin 2) ∈ ([0] : List (Fin 2))))]

/-- Operand axis 1 is the one kept axis, read by the result's one offset axis: the offset coordinate there is the
    result's column. -/
private theorem row_off_one {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) :
    (rowGatherDims N D E wf).offCoord (ix2 e k) 1 = k.val := by
  unfold GatherDims.offCoord
  rw [dif_pos ((GatherDims.mem_sKept _ _).mpr
    ⟨(by decide : ¬ (1 : Fin 2) ∈ ([0] : List (Fin 2))), List.not_mem_nil⟩)]
  rfl

/-- THE ROW GATHER AT `(e, k)`: column `k` of the operand's row `idx[e, 0]`, the row number read signed and clamped into
    `[0, N − 1]`. -/
theorem rowGather_apply {N D E w : Nat} (hN : 0 < N)
    (wf : GatherDims.WF (⟨2, ![N, D]⟩ : Shape) (⟨2, ![E, 1]⟩ : Shape) (⟨2, ![E, D]⟩ : Shape) [1] [0] [] [0] [] 1 ![1, D])
    (x : (⟨2, ![N, D]⟩ : Shape).Idx → α) (idx : IVec (⟨2, ![E, 1]⟩ : Shape) w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  revert a
  refine Fin.forall_fin_two.2 ⟨?_, ?_⟩
  · show (rowGatherDims N D E wf).start (ix2 e k) idx 0 + (rowGatherDims N D E wf).batchCoord (ix2 e k) 0
        + (rowGatherDims N D E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      row_start_zero]
    rfl
  · show (rowGatherDims N D E wf).start (ix2 e k) idx 1 + (rowGatherDims N D E wf).batchCoord (ix2 e k) 1
        + (rowGatherDims N D E wf).offCoord (ix2 e k) 1 = k.val
    rw [GatherDims.batchCoord_eq_zero _ _ _ List.not_mem_nil, row_start_one, row_off_one]
    omega

end Row

/-! ## Words: the index wrap on a non-negative word, and a word read as a natural number -/

section Words

/-- A signed "less than zero" test on a word that reads non-negative answers the bit `0`, so a select on it is its
    second operand. -/
theorem select_slt_zero_of_nonneg {α : Type} (x : BitVec 32) (hx : 0 ≤ x.toInt) (a b : α) :
    Scalar.select (IntOp.cmpi .slt x 0#32) a b = b := by
  have h : x.slt 0#32 = false := by
    simp only [BitVec.slt, BitVec.toInt_zero, decide_eq_false_iff_not, not_lt]
    exact hx
  show Scalar.select (BitVec.ofBool (x.slt 0#32)) a b = b
  rw [h]
  exact select_zero a b

/-- The index wrap `x < 0 ? x + 50000 : x` leaves a word that reads non-negative alone. -/
theorem wrap_nonneg (x : BitVec 32) (hx : 0 ≤ x.toInt) :
    Scalar.select (IntOp.cmpi .slt x 0#32) (IntOp.addi x 50000#32) x = x :=
  select_slt_zero_of_nonneg x hx _ _

/-- The same on vectors, read at an index: where `v`'s word reads non-negative, `select (v < z) (v + c) v` with `z` the
    zero vector is `v`'s word, whatever the addend `c`. -/
theorem wrap_apply_of_nonneg {s : Shape} (v : IVec s 32) (z c : IVec s 32) (hz : ∀ i, z i = 0#32) (i : s.Idx)
    (hx : 0 ≤ (v i).toInt) : select (cmpi .slt v z) (addi v c) v i = v i := by
  show Scalar.select (IntOp.cmpi .slt (v i) (z i)) (IntOp.addi (v i) (c i)) (v i) = v i
  rw [hz i]
  exact select_slt_zero_of_nonneg (v i) hx _ _

/-- A 32-bit word reads, signed, as the natural number `g < 2³¹` exactly when it is `g`'s word. -/
theorem toInt_eq_iff_eq_ofNat (x : BitVec 32) (g : Nat) (hg : g < 2 ^ 31) :
    x.toInt = (g : ℤ) ↔ x = BitVec.ofNat 32 g := by
  have hgi : (BitVec.ofNat 32 g).toInt = (g : ℤ) := by
    rw [BitVec.toInt_eq_toNat_cond, BitVec.toNat_ofNat]
    have hm : g % 2 ^ 32 = g := Nat.mod_eq_of_lt (by omega)
    rw [hm, if_pos (by omega)]
  constructor
  · intro h
    exact BitVec.eq_of_toInt_eq (h.trans hgi.symm)
  · rintro rfl
    exact hgi

end Words

end Cert.LibGather

end
-- ==== Proof.Weights.lean ====
/-
  The edge weights are real, whatever the edge list. The weight of (edge or self-loop) `e` is
  `s(row e) · w(e) · s(col e)`, where `w(e)` is 0 or 1 (a compare of two index words, converted; 1 on the appended
  self-loops) and `s(r)` is 0 if the degree `d(r)` is not positive and `1 / sqrt d(r)` if it is. For EVERY extended
  real `d` that `s` is a real number: a `d` that is not positive (or is −∞) gives 0; a positive real gives the
  reciprocal of a positive real root; +∞ gives `1 / +∞ = 0`. A gather reads one entry of `s`, so each factor is real,
  and so is the product, broadcast along the feature axis.
-/
import proofs.«145998_j90606630076672_1_alg».proof.Proof.RefRun
import proofs.«145998_j90606630076672_1_alg».proof.Proof.Spec
import proofs.«145998_j90606630076672_1_alg».proof.Proof.LibGather
import Idealize.ShloMosaic.Lib.Pipeline.Value
import Idealize.ShloMosaic.Lib.IdealHost

set_option maxRecDepth 16384

noncomputable section

namespace Cert.Gcn

open Idealize.ShloMosaic Idealize.ShloMosaic.TcCoe Idealize.ShloMosaic.ValueIdx
open Cert.ReferenceIdeal Cert.ReferenceIdeal.Gen

/-! ## Scalars: the compare with zero, the normalising factor, a converted bit, a product -/

private theorem cmp_ogt_zero_bot : Ideal.cmp .ogt (⊥ : EReal) 0 = 0#1 := by
  simp [Ideal.cmp]

private theorem cmp_ogt_zero_top : Ideal.cmp .ogt (⊤ : EReal) 0 = 1#1 := by
  simp [Ideal.cmp]

private theorem cmp_ogt_zero_pos {x : ℝ} (hx : 0 < x) : Ideal.cmp .ogt (x : EReal) 0 = 1#1 := by
  simp [Ideal.cmp, hx]

private theorem cmp_ogt_zero_nonpos {x : ℝ} (hx : ¬ 0 < x) : Ideal.cmp .ogt (x : EReal) 0 = 0#1 := by
  simp [Ideal.cmp, hx]

/-- The normalising factor of a degree `d`: 0 where `d` is not positive, else one over the root of `d` (the root taken
    of `d` where it is positive and of 1 elsewhere). For EVERY extended real `d` it is a real number: −∞ and the reals
    that are not positive fail the compare and give 0; a positive real gives the reciprocal of its positive root;
    +∞ has root +∞, and one over +∞ is `1 · (+∞)⁻¹ = 0`. -/
private theorem invSqrt_real (d : EReal) :
    ∃ r : ℝ, Scalar.select (Ideal.cmp .ogt d 0)
      (Ideal.div 1 (Ideal.sqrt (Scalar.select (Ideal.cmp .ogt d 0) d 1))) (0 : EReal) = (r : EReal) := by
  induction d using EReal.rec with
  | bot =>
    rw [cmp_ogt_zero_bot, select_zero]
    exact ⟨0, rfl⟩
  | coe x =>
    by_cases hx : 0 < x
    · rw [cmp_ogt_zero_pos hx, select_one, select_one, Ideal.sqrt_coe, if_neg (not_lt.mpr hx.le),
        Ideal.div_coe (Real.sqrt_pos.mpr hx).ne', one_mul]
      exact ⟨_, rfl⟩
    · rw [cmp_ogt_zero_nonpos hx, select_zero]
      exact ⟨0, rfl⟩
  | top =>
    rw [cmp_ogt_zero_top, select_one, select_one, Ideal.sqrt_top]
    refine ⟨0, ?_⟩
    simp [Ideal.div]

/-- A one-bit word converted (unsigned) to a float is the real number 0 or 1. -/
private theorem uitofp_bit_real (b : BitVec 1) :
    ∃ r : ℝ, (FloatOps.uitofp (F := Ideal) .f32 b : EReal) = (r : EReal) :=
  ⟨(b.toNat : ℝ), rfl⟩

/-- A product of two real numbers is a real number. -/
private theorem mul_real {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-! ## The two operations with no generated read: the element gather and the two-piece concatenation -/

/-- An entry of the element gather IS an entry of its operand (the one at the clamped row number), so it is real when
    every entry of the operand is. -/
private theorem gathered_real (x : S100000.Idx → EReal) (hx : ∀ k, ∃ r : ℝ, x k = (r : EReal))
    (idx : IVec S1700000x1 32) (j : S1700000.Idx) :
    ∃ r : ℝ, Host.gather gather_S100000_S1700000x1_S1700000_n_0_n_n_0_1_1 x idx j = (r : EReal) := by
  obtain ⟨e, rfl⟩ : ∃ e, j = ix1 e := ⟨_, eq_ix1 j⟩
  have h : Host.gather gather_S100000_S1700000x1_S1700000_n_0_n_n_0_1_1 x idx (ix1 e)
      = x (ix1 ⟨min (idx (ix2 e (0 : Fin 1))).toInt.toNat (100000 - 1), by omega⟩) :=
    Cert.LibGather.vecGather_apply (N := 100000) (E := 1700000) (by norm_num)
      gather_S100000_S1700000x1_S1700000_n_0_n_n_0_1_1_wf x idx e
  rw [h]
  exact hx _

/-- An entry of the concatenation of 1600000 and 100000 entries is an entry of one of the two pieces, so it is real
    when every entry of both pieces is. -/
private theorem concat_real (x₁ : S1600000.Idx → EReal) (x₂ : S100000.Idx → EReal)
    (h₁ : ∀ i, ∃ r : ℝ, x₁ i = (r : EReal)) (h₂ : ∀ i, ∃ r : ℝ, x₂ i = (r : EReal)) (j : S1700000.Idx) :
    ∃ r : ℝ, concatenate S1700000 0 [⟨S1600000, x₁⟩, ⟨S100000, x₂⟩] concatenates_S1600000_S100000_S1700000_d0 j
      = (r : EReal) := by
  have hj : (j 0).val < 1700000 := (j 0).isLt
  by_cases hlt : (j 0).val < 1600000
  · rw [concatenate_pair_apply_left (0 : Fin S1700000.rank) x₁ x₂ concatenates_S1600000_S100000_S1700000_d0 j rfl
      (ix1 ⟨(j 0).val, hlt⟩) (fun b => match b with | ⟨0, _⟩ => rfl)]
    exact h₁ _
  · rw [concatenate_pair_apply_right (0 : Fin S1700000.rank) x₁ x₂ concatenates_S1600000_S100000_S1700000_d0 j rfl rfl
      (ix1 ⟨(j 0).val - 1600000, by omega⟩) (fun b hb => absurd (Subsingleton.elim _ _) hb)
      (by show (j 0).val - 1600000 + 1600000 = (j 0).val; omega)]
    exact h₂ _

/-! ## The stages, bottom up -/

section Stages
variable (ei : (⟨S2x1600000, .i32⟩ : BufTy).Contents (Elt Ideal))

/-- The normalising factor `s(r)` of every node `r` is real, whatever its degree. -/
private theorem v23_real (i : S100000.Idx) : ∃ r : ℝ, Read.val_main_v23 (F := Ideal) ei i = (r : EReal) := by
  rw [Read.val_main_v23_apply, Read.val_main_v19_apply, Read.val_main_v22_apply, Read.val_main_v21_apply,
    Read.val_main_cst_4_apply, Read.val_main_v20_apply, Read.val_main_v17_apply, Read.val_main_v16_apply,
    Read.val_main_v15_apply, Read.val_main_cst_1_apply, Read.val_main_call0_v1_apply, Read.val_main_call0_v0_apply,
    Read.val_main_cst_2_apply, Read.val_main_v18_apply, Read.val_main_cst_3_apply, Read.val_main_call1_v1_apply,
    Read.val_main_call1_v0_apply, Read.val_main_cst_5_apply]
  generalize Read.val_main_v14 (F := Ideal) ei i = d
  simp only [Ideal.cmpf_def, Ideal.hostDivf_def, Ideal.hostUnary_sqrt_def, Ideal.ofBits_def, Ideal.ofBits_zero_f32,
    Ideal.ofBits_one_f32]
  exact invSqrt_real d

/-- The edge indicator `w(e)`: a converted compare bit on the 1600000 given edges, the number 1 on the 100000 appended
    self-loops. -/
private theorem v11_real (j : S1700000.Idx) : ∃ r : ℝ, Read.val_main_v11 (F := Ideal) ei j = (r : EReal) := by
  unfold Read.val_main_v11
  refine concat_real _ _ (fun i => ?_) (fun i => ?_) j
  · rw [Read.val_main_v6_apply]
    exact uitofp_bit_real _
  · rw [Read.val_main_v10_apply, Read.val_main_cst_apply, Ideal.ofBits_def, Ideal.ofBits_one_f32]
    exact ⟨1, rfl⟩

/-- `s(row e)`: a gathered entry of `s`. -/
private theorem v30_real (j : S1700000.Idx) : ∃ r : ℝ, Read.val_main_v30 (F := Ideal) ei j = (r : EReal) := by
  unfold Read.val_main_v30
  exact gathered_real _ (v23_real ei) _ j

/-- `s(col e)`: a gathered entry of `s`. -/
private theorem v38_real (j : S1700000.Idx) : ∃ r : ℝ, Read.val_main_v38 (F := Ideal) ei j = (r : EReal) := by
  unfold Read.val_main_v38
  exact gathered_real _ (v23_real ei) _ j

/-- `s(row e) · w(e)`. -/
private theorem v31_real (j : S1700000.Idx) : ∃ r : ℝ, Read.val_main_v31 (F := Ideal) ei j = (r : EReal) := by
  rw [Read.val_main_v31_apply, Ideal.mulf_def]
  exact mul_real (v30_real ei j) (v11_real ei j)

/-- The weight `s(row e) · w(e) · s(col e)`. -/
private theorem v39_real (j : S1700000.Idx) : ∃ r : ℝ, Read.val_main_v39 (F := Ideal) ei j = (r : EReal) := by
  rw [Read.val_main_v39_apply, Ideal.mulf_def]
  exact mul_real (v31_real ei j) (v38_real ei j)

end Stages

/-- Every entry of the broadcast edge-weight array is a real number. -/
theorem weights_real (ei : (⟨S2x1600000, .i32⟩ : BufTy).Contents (Elt Ideal)) :
    AllReal (S := S1700000x128) (Read.val_main_v48 (F := Ideal) ei) := by
  intro i
  rw [Read.val_main_v48_apply, Read.val_main_v40_apply]
  exact v39_real ei _

end Cert.Gcn

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.Glue.lean ====
/-
  The aggregation, as ONE function of the transformed features `h` and the edge list.

  Both programs compute, from the edge list alone, a weight per (edge or self-loop) `e` — the symmetric degree
  normalisation `d(row e)^(-1/2) · w(e) · d(col e)^(-1/2)`, `w(e)` being 0 on a self-loop of the list and 1 otherwise —,
  gather row `row e` of `h`, scale it by the weight and add it onto row `col e` of a zero matrix. Only the gather, the
  product and the scatter-add see `h`; the weights and both index columns are functions of the edge list, named here by
  the reference's own stages. `glue_real`: if `h` is real so is the aggregate — a weight is real whatever the degree
  (a degree that is not positive gives weight 0, a positive real degree its reciprocal root, an infinite one 0), a
  gathered entry is an entry of `h`, and a scatter-add of reals onto zeros is a finite sum of reals.
-/
import proofs.«145998_j90606630076672_1_alg».proof.Proof.RefRun
import proofs.«145998_j90606630076672_1_alg».proof.Proof.Spec
import proofs.«145998_j90606630076672_1_alg».proof.Proof.Weights
import proofs.«145998_j90606630076672_1_alg».proof.Proof.LibGather
import proofs.«145998_j90606630076672_1_alg».proof.Proof.LibSegmentSum
import Idealize.ShloMosaic.Lib.Pipeline.Value

set_option maxRecDepth 16384

noncomputable section

namespace Cert.Gcn

open Idealize.ShloMosaic Idealize.ShloMosaic.TcCoe Idealize.ShloMosaic.ValueIdx
open Cert.ReferenceIdeal Cert.ReferenceIdeal.Gen

/-- A row scatter-add of real update rows onto a zero operand is real at every element: the element is a finite sum
    whose every term is an update entry or zero. -/
private theorem rowScatterAdd_real {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal)
    (hx : ∀ i, x i = 0) (hu : ∀ (e : Fin E) (k : Fin D), ∃ t : ℝ, u (ix2 e k) = (t : EReal))
    (r : Fin M) (k : Fin D) :
    ∃ t : ℝ, Ideal.hostScatterAdd (Cert.LibSegmentSum.rowScatterDims M D E wf) x idx u (ix2 r k) = (t : EReal) := by
  choose f hf using hu
  refine ⟨∑ e : Fin E, if (idx (ix2 e (0 : Fin 1))).toInt = (r.val : ℤ) then f e k else 0, ?_⟩
  rw [Cert.LibSegmentSum.rowScatterAdd_apply, hx, zero_add, ← IdealReal.coe_sum]
  refine Finset.sum_congr rfl fun e _ => ?_
  rw [hf e k]
  split
  · rfl
  · exact EReal.coe_zero.symm

/-- A real weight times a gathered row of a real matrix is real at every element: the gathered entry is an entry of
    the matrix (the row number clamped into range, the column kept). -/
private theorem mul_rowGather_real {N D E w : Nat} (hN : 0 < N)
    (wf : GatherDims.WF (⟨2, ![N, D]⟩ : Shape) (⟨2, ![E, 1]⟩ : Shape) (⟨2, ![E, D]⟩ : Shape) [1] [0] [] [0] [] 1 ![1, D])
    (wt : (⟨2, ![E, D]⟩ : Shape).Idx → EReal) (x : (⟨2, ![N, D]⟩ : Shape).Idx → EReal)
    (idx : IVec (⟨2, ![E, 1]⟩ : Shape) w)
    (hwt : ∀ i, ∃ t : ℝ, wt i = (t : EReal)) (hx : ∀ i, ∃ t : ℝ, x i = (t : EReal)) (e : Fin E) (k : Fin D) :
    ∃ t : ℝ, wt (ix2 e k) * Host.gather (Cert.LibGather.rowGatherDims N D E wf) x idx (ix2 e k) = (t : EReal) := by
  obtain ⟨a, ha⟩ := hwt (ix2 e k)
  obtain ⟨b, hb⟩ := hx (ix2 ⟨min (idx (ix2 e (0 : Fin 1))).toInt.toNat (N - 1), by omega⟩ k)
  exact ⟨a * b, by rw [Cert.LibGather.rowGather_apply hN, ha, hb, EReal.coe_mul]⟩

/-- The aggregate of a real matrix is real, at any sizes: real weights times gathered rows of a real matrix,
    scatter-added onto a zero matrix, give at every element a finite sum of reals. -/
private theorem agg_real {N D E w : Nat} (hN : 0 < N)
    (wfs : ScatterDims.WF (⟨2, ![N, D]⟩ : Shape) (⟨2, ![E, 1]⟩ : Shape) (⟨2, ![E, D]⟩ : Shape) [1] [0] [0] 1)
    (wfg : GatherDims.WF (⟨2, ![N, D]⟩ : Shape) (⟨2, ![E, 1]⟩ : Shape) (⟨2, ![E, D]⟩ : Shape) [1] [0] [] [0] [] 1 ![1, D])
    (z : FVec Ideal (⟨2, ![N, D]⟩ : Shape) .f32) (tgt src : IVec (⟨2, ![E, 1]⟩ : Shape) w)
    (wt : FVec Ideal (⟨2, ![E, D]⟩ : Shape) .f32) (x : FVec Ideal (⟨2, ![N, D]⟩ : Shape) .f32)
    (hz : ∀ i, z i = 0) (hwt : ∀ i, ∃ t : ℝ, wt i = (t : EReal)) (hx : ∀ i, ∃ t : ℝ, x i = (t : EReal))
    (i : (⟨2, ![N, D]⟩ : Shape).Idx) :
    ∃ t : ℝ, Host.scatterAdd (F := Ideal) (φ := .f32) (Cert.LibSegmentSum.rowScatterDims N D E wfs) z tgt
        (mulf (F := Ideal) (φ := .f32) wt (Host.gather (Cert.LibGather.rowGatherDims N D E wfg) x src)) i
      = (t : EReal) := by
  rw [eq_ix2 i]
  exact rowScatterAdd_real wfs z tgt _ hz (fun e k => mul_rowGather_real hN wfg wt x src hwt hx e k) (i 0) (i 1)

variable {F : FTy → Type} [FloatOps F]

/-- The aggregate from `h` and the edge list, at any float family: rows of `h` gathered by source, weighted, summed
    onto their targets. -/
def glueF (h : (⟨S100000x128, .f32⟩ : BufTy).Contents (Elt F)) (ei : (⟨S2x1600000, .i32⟩ : BufTy).Contents (Elt F)) :
    (⟨S100000x128, .f32⟩ : BufTy).Contents (Elt F) :=
  Host.scatterAdd scatter_S100000x128_S1700000x1_S1700000x128_1_0_0_1 (Read.val_main_v50 (F := F)) (Read.val_main_v51 (F := F) ei)
    (mulf (Read.val_main_v48 (F := F) ei)
      (Host.gather gather_S100000x128_S1700000x1_S1700000x128_1_0_n_n_0_1_1128 h (Read.val_main_v46 (F := F) ei)))

/-- The aggregate over the extended reals. -/
def glue (h : (⟨S100000x128, .f32⟩ : BufTy).Contents (Elt Ideal)) (ei : (⟨S2x1600000, .i32⟩ : BufTy).Contents (Elt Ideal)) :
    (⟨S100000x128, .f32⟩ : BufTy).Contents (Elt Ideal) :=
  glueF (F := Ideal) h ei

theorem glue_eq (h : (⟨S100000x128, .f32⟩ : BufTy).Contents (Elt Ideal)) (ei : (⟨S2x1600000, .i32⟩ : BufTy).Contents (Elt Ideal)) :
    glue h ei = glueF (F := Ideal) h ei := rfl

/-- The reference's aggregate stage is the aggregate of its `h` stage, at any float family. -/
theorem ref_aggF (x0 : (⟨S100000x128, .f32⟩ : BufTy).Contents (Elt F)) (x1 : (⟨S2x1600000, .i32⟩ : BufTy).Contents (Elt F))
    (x2 : (⟨S128x128, .f32⟩ : BufTy).Contents (Elt F)) :
    Read.val_main_v52 (F := F) x0 x1 x2 = glueF (F := F) (Read.val_main_v0 (F := F) x0 x2) x1 := by
  unfold glueF Read.val_main_v52 Read.val_main_v49 Read.val_main_v47
  rfl

/-- The reference's aggregate stage is `glue` of its `h` stage. -/
theorem ref_agg (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    Read.val_main_v52 (F := Ideal) x0 x1 x2 = glue (Read.val_main_v0 (F := Ideal) x0 x2) x1 := by
  rw [glue_eq]
  exact ref_aggF (F := Ideal) x0 x1 x2

/-- A real `h` gives a real aggregate, whatever the edge list. -/
theorem glue_real (h : (⟨S100000x128, .f32⟩ : BufTy).Contents (Elt Ideal)) (ei : (⟨S2x1600000, .i32⟩ : BufTy).Contents (Elt Ideal))
    (hh : AllReal (S := SN) h) : AllReal (S := SN) (glue h ei) := by
  intro i
  rw [glue_eq]
  unfold glueF
  exact agg_real (N := 100000) (D := 128) (E := 1700000) (by norm_num)
    scatter_S100000x128_S1700000x1_S1700000x128_1_0_0_1_wf gather_S100000x128_S1700000x1_S1700000x128_1_0_n_n_0_1_1128_wf
    (Read.val_main_v50 (F := Ideal)) (Read.val_main_v51 (F := Ideal) ei) (Read.val_main_v46 (F := Ideal) ei)
    (Read.val_main_v48 (F := Ideal) ei) h
    (fun j => by rw [Read.val_main_v50_apply, Read.val_main_cst_11_apply]; exact Ideal.ofBits_zero_f32)
    (weights_real ei) hh i

end Cert.Gcn

end
-- ==== Proof.RefValue.lean ====
/-
  The reference's result, entry by entry, in the specification's words: its `h` stage is the matrix product
  `x · W`; its aggregate is `glue` of that; then bias, clamp at zero, column mean over the 100000 rows, the variance as the
  mean of the squared deviations, and (activation − mean) / sqrt (variance + ε) · γ + β.
-/
import proofs.«145998_j90606630076672_1_alg».proof.Proof.RefRun
import proofs.«145998_j90606630076672_1_alg».proof.Proof.Spec
import proofs.«145998_j90606630076672_1_alg».proof.Proof.Glue

set_option maxRecDepth 16384

noncomputable section

namespace Cert.Gcn

open Idealize.ShloMosaic Idealize.ShloMosaic.TcCoe Idealize.ShloMosaic.ValueIdx
open Cert.ReferenceIdeal Cert.ReferenceIdeal.Gen

/-- The reference's `dot_general` is the matrix product, entry by entry. -/
theorem ref_h (x0 : (⟨S100000x128, .f32⟩ : BufTy).Contents (Elt Ideal)) (x2 : (⟨S128x128, .f32⟩ : BufTy).Contents (Elt Ideal)) :
    Read.val_main_v0 (F := Ideal) x0 x2 = hmat x0 x2 := by
  funext i
  rw [Read.val_main_v0_apply]
  unfold hmat
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 k (i 1) :=
    funext fun a => Fin.ext (by match a with | ⟨0, _⟩ => rfl | ⟨1, _⟩ => rfl)
  rw [el, er]
  rfl

/-- The activation stage at an entry: aggregate plus bias, clamped at zero from below. -/
private theorem ref_act (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (p : Fin 100000) (q : Fin 128) :
    Read.val_main_v56 (F := Ideal) x0 x1 x2 x3 (ix2 p q)
      = act (glue (hmat x0 x2) x1) (fun q => x3 (ix1 q)) p q := by
  rw [Read.val_main_v56_apply, Read.val_main_v55_apply, Read.val_main_call2_v0_apply, Read.val_main_call2_cst_apply,
    Read.val_main_v54_apply, Read.val_main_v53_apply, ref_agg, ref_h]
  have e1 : Read.idx_main_v53 (Read.idx_main_v54 (ix2 p q)) = ix1 q :=
    funext fun a => Fin.ext (by match a with | ⟨0, _⟩ => rfl)
  rw [e1]
  unfold act zeroF
  simp only [Ideal.maximumf_def, Ideal.addf_def, Ideal.ofBits_def]

/-- The column mean stage: the column's sum over the node count. -/
private theorem ref_mean (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (q : Fin 128) :
    Read.val_main_v59 (F := Ideal) x0 x1 x2 x3 (ix1 q)
      = mean (act (glue (hmat x0 x2) x1) (fun q => x3 (ix1 q))) q := by
  rw [Read.val_main_v59_apply, Read.val_main_v57_apply, Read.val_main_v58_apply, Read.val_main_cst_13_apply,
    Read.val_main_cst_12_apply]
  have hs : ∀ k : Fin 100000, Read.val_main_v56 (F := Ideal) x0 x1 x2 x3 (Read.idx_main_v57 (ix1 q) k)
      = act (glue (hmat x0 x2) x1) (fun q => x3 (ix1 q)) k q := by
    intro k
    have e : Read.idx_main_v57 (ix1 q) k = ix2 k q :=
      funext fun a => Fin.ext (by match a with | ⟨0, _⟩ => rfl | ⟨1, _⟩ => rfl)
    rw [e, ref_act]
  simp only [hs]
  unfold mean meanS colSum cntF
  simp only [Ideal.hostDivf_def, Ideal.addf_def, Ideal.ofBits_def, Ideal.ofBits_zero_f32, zero_add]

/-- The variance stage: the mean of the squared deviations from the column mean. -/
private theorem ref_var (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (q : Fin 128) :
    Read.val_main_v66 (F := Ideal) x0 x1 x2 x3 (ix1 q)
      = varR (act (glue (hmat x0 x2) x1) (fun q => x3 (ix1 q))) q := by
  rw [Read.val_main_v66_apply, Read.val_main_v64_apply, Read.val_main_v65_apply, Read.val_main_cst_15_apply,
    Read.val_main_cst_14_apply]
  have hs : ∀ k : Fin 100000, Read.val_main_v63 (F := Ideal) x0 x1 x2 x3 (Read.idx_main_v64 (ix1 q) k)
      = (act (glue (hmat x0 x2) x1) (fun q => x3 (ix1 q)) k q - mean (act (glue (hmat x0 x2) x1) (fun q => x3 (ix1 q))) q)
        * (act (glue (hmat x0 x2) x1) (fun q => x3 (ix1 q)) k q - mean (act (glue (hmat x0 x2) x1) (fun q => x3 (ix1 q))) q) := by
    intro k
    have e : Read.idx_main_v64 (ix1 q) k = ix2 k q :=
      funext fun a => Fin.ext (by match a with | ⟨0, _⟩ => rfl | ⟨1, _⟩ => rfl)
    have e' : Read.idx_main_v60 (Read.idx_main_v61 (ix2 k q)) = ix1 q :=
      funext fun a => Fin.ext (by match a with | ⟨0, _⟩ => rfl)
    rw [e, Read.val_main_v63_apply, Read.val_main_v62_apply, Read.val_main_v61_apply, Read.val_main_v60_apply, e',
      ref_act, ref_mean]
    simp only [Ideal.mulf_def, Ideal.subf_def]
  simp only [hs]
  unfold varR cntF
  simp only [Ideal.hostDivf_def, Ideal.addf_def, Ideal.ofBits_def, Ideal.ofBits_zero_f32, zero_add]

/-- The reference's result at an entry. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal))
    (p : Fin 100000) (q : Fin 128) :
    Read.val_main_v81 (F := Ideal) x0 x1 x2 x3 x4 x5 (ix2 p q)
      = outR (act (glue (hmat x0 x2) x1) (fun q => x3 (ix1 q))) (x4 (ix1 q)) (x5 (ix1 q)) p q := by
  have e67 : Read.idx_main_v67 (Read.idx_main_v68 (ix2 p q)) = ix1 q :=
    funext fun a => Fin.ext (by match a with | ⟨0, _⟩ => rfl)
  have e73 : Read.idx_main_v73 (Read.idx_main_v74 (ix2 p q)) = ix1 q :=
    funext fun a => Fin.ext (by match a with | ⟨0, _⟩ => rfl)
  have e76 : Read.idx_main_v76 (Read.idx_main_v77 (ix2 p q)) = ix1 q :=
    funext fun a => Fin.ext (by match a with | ⟨0, _⟩ => rfl)
  have e79 : Read.idx_main_v79 (Read.idx_main_v80 (ix2 p q)) = ix1 q :=
    funext fun a => Fin.ext (by match a with | ⟨0, _⟩ => rfl)
  rw [Read.val_main_v81_apply, Read.val_main_v78_apply, Read.val_main_v75_apply, Read.val_main_v69_apply,
    Read.val_main_v74_apply, Read.val_main_v73_apply, Read.val_main_v72_apply, Read.val_main_v71_apply,
    Read.val_main_v70_apply, Read.val_main_cst_16_apply, Read.val_main_v68_apply, Read.val_main_v67_apply,
    Read.val_main_v77_apply, Read.val_main_v76_apply, Read.val_main_v80_apply, Read.val_main_v79_apply,
    e67, e73, e76, e79, ref_act, ref_mean, ref_var]
  unfold outR epsF
  simp only [Ideal.addf_def, Ideal.mulf_def, Ideal.subf_def, Ideal.hostDivf_def, Ideal.hostUnary_sqrt_def, Ideal.ofBits_def]

end Cert.Gcn

end
-- ==== Proof.Region0.lean ====
/-
  The first kernel region's value: over a grid of 20 row blocks of 5000 rows each, the body multiplies its block of
  `x` by the whole of `W` into a zero accumulator; the blocks tile the result, so the result array after the region is
  the matrix product `x · W`, entry (p, q) the sum over k of x(p, k) · W(k, q), whatever contents `V` the region finds.
-/
import proofs.«145998_j90606630076672_1_alg».proof.Proof.Gen.KernelIdeal.Frame
import proofs.«145998_j90606630076672_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## The product of one block: the body's payload at an index -/

/-- The zero offsets of a whole-buffer access. -/
private theorem offs_zero : (![0, 0] : Fin 2 → Nat) = fun _ => 0 := funext fun a => by fin_cases a <;> rfl

/-- The left operand's index at output index `i` and contraction index `q`: row `i 0` … -/
private theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column the contraction coordinate. -/
private theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contraction coordinate … -/
private theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and column `i 1`. -/
private theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an index: the format changes are the identity on extended reals and the accumulator is zero,
    so entry (p, q) of the block product is the sum over k of x0(p, k) · x1(k, q). -/
private theorem block_product_apply (x0 : Vec Ideal S5000x128 .f32) (x1 : Vec Ideal S128x128 .f32) (i : S5000x128.Idx) :
    k0_pay1 (F := Ideal) x0 x1 i = ∑ k : Fin 128, x0 (ix2 (i 0) k) * x1 (ix2 k (i 1)) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = ix2 (i 0) k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx i ((ValueIdx.contrEquiv1 dot_S5000x128_S128x128_S5000x128_1_0_0_1_n_n 128 rfl rfl).symm k) = ix2 k (i 1) := funext fun a => Fin.ext (by
    match a with
    | ⟨0, _⟩ => exact (rhs_blk_0 _ _).trans hk
    | ⟨1, _⟩ => exact rhs_blk_1 _ _)
  rw [el, er]
  rfl

/-! ## From blocks to the array -/

section Region
variable (V : (c : Dev nD) → (b : Ref sig .tc) → Buf (Elt Ideal) ((c : Thread nD τ).loc b))

/-- The two argument arrays as the region finds them. -/
private abbrev xarr (c : Dev nD) : Vec Ideal S100000x128 .f32 := V c main_arg0
private abbrev warr (c : Dev nD) : Vec Ideal S128x128 .f32 := V c main_arg2

/-- The printed index maps, decided once over the grid: at point `t` the block of `x` and the block of the result are
    both row block `t`, column block 0; the block of `W` is the whole of it. -/
private theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point `t`'s block of `x` is entry (5000 t + p, k) of `x`. -/
private theorem xblock_apply (c : Dev nD) (t : Fin cfg0.N) (y : S5000x128.Idx) (i : S100000x128.Idx)
    (h0 : (i 0).val = t.val * 5000 + (y 0).val) (h1 : (i 1).val = (y 1).val) :
    (iblk0 (F := Ideal) V c 0 t : Vec Ideal S5000x128 .f32) y = xarr V c i := by
  obtain ⟨e0, e1, -, -, -, -⟩ := index_facts t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Point `t`'s block of `W` is `W`. -/
private theorem wblock_apply (c : Dev nD) (t : Fin cfg0.N) (y : S128x128.Idx) (i : S128x128.Idx)
    (h0 : (i 0).val = (y 0).val) (h1 : (i 1).val = (y 1).val) :
    (iblk0 (F := Ideal) V c 1 t : Vec Ideal S128x128 .f32) y = warr V c i := by
  obtain ⟨-, -, e0, e1, -, -⟩ := index_facts t
  show V c main_arg2 (((cfg0.win 1).blk t).view.emb y) = V c main_arg2 i
  refine congrArg (V c main_arg2) (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- WHAT POINT `t` WRITES BACK is block `t` of `x · W`: row p of the block product is row 5000 t + p of the product. -/
private theorem flushed_eq (c : Dev nD) (t : Fin cfg0.N) :
    (dat0 (F := Ideal) V c).flushed 2 t = ((cfg0.win 2).blk t).view.read (Elt Ideal) (hmat (xarr V c) (warr V c)) := by
  show (cfg0.win 2).cut (grid0.coords t) ((dat0 (F := Ideal) V c).after 2 t) = _
  rw [after0_2]
  unfold out0_2
  rw [View.canon_unit_zero offs_zero]
  simp only [View.ld_unit_zero (S := S5000x128) offs_zero, View.ld_unit_zero (S := S128x128) offs_zero]
  obtain ⟨-, -, -, -, e0, e1⟩ := index_facts t
  funext j
  have hj0 : (j 0).val < 5000 := (j 0).isLt
  have hj1 : (j 1).val < 128 := (j 1).isLt
  show k0_pay1 (F := Ideal) (iblk0 (F := Ideal) V c 0 t) (iblk0 (F := Ideal) V c 1 t) (win0_2.xinj (grid0.coords t) j)
    = hmat (xarr V c) (warr V c) (((cfg0.win 2).blk t).view.emb j)
  refine (block_product_apply (iblk0 (F := Ideal) V c 0 t) (iblk0 (F := Ideal) V c 1 t) (win0_2.xinj (grid0.coords t) j)).trans ?_
  unfold hmat
  refine Finset.sum_congr rfl fun k _ => ?_
  have hx := xblock_apply V c t (ix2 (win0_2.xinj (grid0.coords t) j 0) k) (ix2 ((((cfg0.win 2).blk t).view.emb j) 0) k)
    (by show win0_2.index t (0 : Fin 2) * 5000 + 1 * (j 0).val = t.val * 5000 + (j 0).val; omega) rfl
  have hw := wblock_apply V c t (ix2 k (win0_2.xinj (grid0.coords t) j 1)) (ix2 k ((((cfg0.win 2).blk t).view.emb j) 1))
    rfl (by show win0_2.index t (1 : Fin 2) * 128 + 1 * (j 1).val = (j 1).val; omega)
  rw [hx, hw]

/-- An index of the array is in point `t`'s block iff each coordinate is in the block's range on its axis. -/
private theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The blocks tile the array: row r lies in row block r / 5000, which some point writes back. -/
private theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < cfg0.N := by rw [show cfg0.N = 20 from N_0]; omega
  obtain ⟨t, ht⟩ : ∃ t : Fin cfg0.N, t.val = (i 0).val / 5000 := ⟨⟨(i 0).val / 5000, hlt⟩, rfl⟩
  obtain ⟨-, -, -, -, e0, e1⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Region

/-- The region's result array after its last grid point is `x · W` of the arrays it found. -/
theorem region0_value (V : (c : Dev nD) → (b : Ref sig .tc) → Buf (Elt Ideal) ((c : Thread nD τ).loc b)) (c : Dev nD) :
    ((dat0 (F := Ideal) V c).arrAt 2 cfg0.N : S100000x128.Idx → EReal)
      = hmat (V c main_arg0 : S100000x128.Idx → EReal) (V c main_arg2 : S128x128.Idx → EReal) :=
  (dat0 (F := Ideal) V c).arrAt_eq_of_cover 2 (hmat (xarr V c) (warr V c)) (fun t _ => flushed_eq V c t) (covered)

end Cert.Gcn

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.Region1.lean ====
/-
  The second kernel region's values. Over a grid of 20 row blocks of 5000 rows, the body adds the bias row to its block
  of the aggregate and clamps at zero (the activation, written back block by block), and keeps two running rows across
  the grid: the column sums of the activations and of their squares, reset to zero at the first point and increased
  by the block's column sums at every point. After the last point the activation array holds the activation of every
  row, and the two rows hold the column sums over all 100000 rows: a sum over 20 · 5000 rows taken block by block.
-/
import proofs.«145998_j90606630076672_1_alg».proof.Proof.Gen.KernelIdeal.Frame
import proofs.«145998_j90606630076672_1_alg».proof.Proof.Spec
import proofs.«145998_j90606630076672_1_alg».proof.Proof.LibProductNT
import Idealize.ShloMosaic.Lib.Pipeline.Value
import Idealize.ShloMosaic.Lib.Tactic
import Idealize.ShloMosaic.Lib.ValueLayout
import Idealize.ShloMosaic.PureOps.Ideal.Laws

set_option maxRecDepth 16384

noncomputable section

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat Cfg Window)

namespace Region1

/-! ### What each control case leaves in the three output buffers, as the body's arithmetic -/

section Pieces

variable {F : FTy → Type} [FloatOps F]

/-- The zero offsets of a whole-block store, as a constant function. -/
theorem hz2 : (![0, 0] : Fin 2 → Nat) = fun _ => 0 := funext fun a => by fin_cases a <;> rfl

/-- Away from the first point the activation block left is the clamped sum of the input block and the bias row. -/
theorem pieceB2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S5000x128) hz2, View.ld_unit_zero (S := S1x128) hz2]

/-- Away from the first point the running row of sums left is the row found plus the block's column sums. -/
theorem pieceB3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S5000x128) hz2, View.ld_unit_zero (S := S1x128) hz2]

/-- Away from the first point the running row of sums of squares left is the row found plus the block's column sums of squares. -/
theorem pieceB4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S5000x128) hz2, View.ld_unit_zero (S := S1x128) hz2]

/-- At the first point the activation block left is the same clamped sum. -/
theorem pieceA2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz2]
  simp only [View.readAt_eq_ld, h1.read_unread, h2.read_unread, View.ld_unit_zero (S := S5000x128) hz2, View.ld_unit_zero (S := S1x128) hz2]

/-- At the first point the running row of sums is reset to the zero row and then increased by the block's column sums. -/
theorem pieceA3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]

/-- At the first point the running row of sums of squares is reset to the zero row and then increased likewise. -/
theorem pieceA4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]

end Pieces

/-! ### The body's arithmetic at an entry, over the extended reals -/

section Payloads

/-- The activation block at an entry: the clamped sum of the input entry and the bias entry of its column. -/
theorem pay3_apply (x : Vec Ideal S5000x128 .f32) (b : Vec Ideal S1x128 .f32) (r : Fin 5000) (q : Fin 128) :
    (k1_pay3 x b : S5000x128.Idx → EReal) (ix2 r q)
      = max ((x : S5000x128.Idx → EReal) (ix2 r q) + (b : S1x128.Idx → EReal) (ix2 (0 : Fin 1) q)) zeroF := by
  unfold k1_pay3
  show max ((shapeCast S5000x128 x shapeCasts_S5000x128_S5000x128 : S5000x128.Idx → EReal) (ix2 r q)
      + (broadcastTo S5000x128 (shapeCast S1x128 b shapeCasts_S1x128_S1x128) broadcasts_S1x128_S5000x128 : S5000x128.Idx → EReal) (ix2 r q)) zeroF = _
  rw [shapeCast_self, shapeCast_self, broadcastTo_1b_ab_apply]

/-- The lane sum over the rows of a block, at a column. -/
theorem laneSum_apply (y : FVec Ideal S5000x128 .f32) (hacc : (0x00000000#32 : BitVec 32) = 0x00000000#32) (q : Fin 128) :
    (multiReduction (F := Ideal) .add [0] S128 y 0x00000000#32 reduces_S5000x128_S128 (.inl rfl) hacc : S128.Idx → EReal) (ix1 q)
      = ∑ r : Fin 5000, (y : S5000x128.Idx → EReal) (ix2 r q) := by
  refine (Ideal.multiReduction_add_single y 0x00000000#32 reduces_S5000x128_S128 (.inl rfl) hacc (ix1 q)).trans ?_
  refine Finset.sum_congr rfl fun r _ => congrArg y ?_
  funext a
  match a with
  | ⟨0, _⟩ => rfl
  | ⟨1, _⟩ => rfl

/-- The new running row of sums at a column: the row found there plus the block's column sum. -/
theorem pay4_apply (x : Vec Ideal S5000x128 .f32) (b : Vec Ideal S1x128 .f32) (acc : Vec Ideal S1x128 .f32) (q : Fin 128) :
    (k1_pay4 x b acc : S1x128.Idx → EReal) (ix2 (0 : Fin 1) q)
      = (acc : S1x128.Idx → EReal) (ix2 (0 : Fin 1) q) + ∑ r : Fin 5000, (k1_pay3 x b : S5000x128.Idx → EReal) (ix2 r q) := by
  unfold k1_pay4
  show (shapeCast S1x128 acc shapeCasts_S1x128_S1x128 : S1x128.Idx → EReal) (ix2 (0 : Fin 1) q)
      + (shapeCast S1x128 (multiReduction (F := Ideal) .add [0] S128 (k1_pay3 x b) 0x00000000#32 reduces_S5000x128_S128 (.inl rfl) rfl) shapeCasts_S128_S1x128 : S1x128.Idx → EReal) (ix2 (0 : Fin 1) q) = _
  rw [shapeCast_self, shapeCast_a_1a_apply, laneSum_apply]

/-- The new running row of sums of squares at a column: the row found there plus the block's column sum of squares. -/
theorem pay5_apply (x : Vec Ideal S5000x128 .f32) (b : Vec Ideal S1x128 .f32) (acc : Vec Ideal S1x128 .f32) (q : Fin 128) :
    (k1_pay5 x b acc : S1x128.Idx → EReal) (ix2 (0 : Fin 1) q)
      = (acc : S1x128.Idx → EReal) (ix2 (0 : Fin 1) q)
        + ∑ r : Fin 5000, (k1_pay3 x b : S5000x128.Idx → EReal) (ix2 r q) * (k1_pay3 x b : S5000x128.Idx → EReal) (ix2 r q) := by
  unfold k1_pay5
  show (shapeCast S1x128 acc shapeCasts_S1x128_S1x128 : S1x128.Idx → EReal) (ix2 (0 : Fin 1) q)
      + (shapeCast S1x128 (multiReduction (F := Ideal) .add [0] S128 (mulf (k1_pay3 x b) (k1_pay3 x b)) 0x00000000#32 reduces_S5000x128_S128 (.inl rfl) rfl) shapeCasts_S128_S1x128 : S1x128.Idx → EReal) (ix2 (0 : Fin 1) q) = _
  rw [shapeCast_self, shapeCast_a_1a_apply, laneSum_apply]
  rfl

/-- The zero rows of the reset, at a column. -/
theorem pay1_apply (q : Fin 128) : ((k1_pay1 (F := Ideal)) : S1x128.Idx → EReal) (ix2 (0 : Fin 1) q) = 0 := zeroF_eq
theorem pay2_apply (q : Fin 128) : ((k1_pay2 (F := Ideal)) : S1x128.Idx → EReal) (ix2 (0 : Fin 1) q) = 0 := zeroF_eq

end Payloads

/-! ### The blocks, the points, and the running rows -/

section Region

variable (V : (c : Dev nD) → (b : Ref sig .tc) → Buf (Elt Ideal) ((c : Thread nD τ).loc b))

/-- The activations of the specification, over the aggregate and the bias row as the region finds them. -/
abbrev actOf (c : Dev nD) : Fin 100000 → Fin 128 → EReal :=
  act (V c main_v52 : S100000x128.Idx → EReal) (fun q => (V c main_v53 : S1x128.Idx → EReal) (ix2 (0 : Fin 1) q))

/-- The block indices of the region's windows at each point: the row windows move with the point, the three
    single rows stay at block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row r of the aggregate's block at point t is row 5000·t + r of the aggregate. -/
theorem xblk_apply (c : Dev nD) (t : Fin cfg1.N) (r : Fin 5000) (q : Fin 128) (hr : t.val * 5000 + r.val < 100000) :
    (iblk1 (F := Ideal) V c 0 t : S5000x128.Idx → EReal) (ix2 r q)
      = (V c main_v52 : S100000x128.Idx → EReal) (ix2 ⟨t.val * 5000 + r.val, hr⟩ q) := by
  obtain ⟨e0, e1, -⟩ := idx_facts1 t
  unfold iblk1
  rw [View.read_apply]
  show (V c main_v52 : S100000x128.Idx → EReal) _ = _
  refine congrArg (V c main_v52 : S100000x128.Idx → EReal) ?_
  funext a; apply Fin.ext
  match a with
  | ⟨0, _⟩ => show win1_0.index t (0 : Fin 2) * 5000 + 1 * r.val = t.val * 5000 + r.val; rw [e0]; omega
  | ⟨1, _⟩ => show win1_0.index t (1 : Fin 2) * 128 + 1 * q.val = q.val; rw [e1]; omega

/-- The bias row's block at every point is the bias row. -/
theorem bblk_apply (c : Dev nD) (t : Fin cfg1.N) (q : Fin 128) :
    (iblk1 (F := Ideal) V c 1 t : S1x128.Idx → EReal) (ix2 (0 : Fin 1) q)
      = (V c main_v53 : S1x128.Idx → EReal) (ix2 (0 : Fin 1) q) := by
  obtain ⟨-, -, e0, e1, -⟩ := idx_facts1 t
  unfold iblk1
  rw [View.read_apply]
  show (V c main_v53 : S1x128.Idx → EReal) _ = _
  refine congrArg (V c main_v53 : S1x128.Idx → EReal) ?_
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The activation block of point t, at row r: the specification's activation of row 5000·t + r. -/
theorem actBlk_apply (c : Dev nD) (t : Fin cfg1.N) (r : Fin 5000) (q : Fin 128) (hr : t.val * 5000 + r.val < 100000) :
    (k1_pay3 (iblk1 (F := Ideal) V c 0 t) (iblk1 (F := Ideal) V c 1 t) : S5000x128.Idx → EReal) (ix2 r q)
      = actOf V c ⟨t.val * 5000 + r.val, hr⟩ q := by
  refine (pay3_apply (iblk1 (F := Ideal) V c 0 t) (iblk1 (F := Ideal) V c 1 t) r q).trans ?_
  rw [xblk_apply V c t r q hr, bblk_apply V c t q]
  rfl

/-- What every point leaves in the activation window's buffer. -/
theorem out2_apply (c : Dev nD) (t : Fin cfg1.N) (r : Fin 5000) (q : Fin 128) (hr : t.val * 5000 + r.val < 100000) :
    ((outsAt1 (F := Ideal) V c t.val t.isLt).1 : S5000x128.Idx → EReal) (ix2 r q) = actOf V c ⟨t.val * 5000 + r.val, hr⟩ q := by
  by_cases h0 : t.val % 20 = 0
  · rw [outsAt1_A V c t h0]; dsimp only
    refine (congrFun (pieceA2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) (ix2 r q)).trans ?_
    exact actBlk_apply V c t r q hr
  · rw [outsAt1_B V c t h0]; dsimp only
    refine (congrFun (pieceB2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) (ix2 r q)).trans ?_
    exact actBlk_apply V c t r q hr

/-- Row r of block t is a row of the array. -/
theorem row_lt (t : Fin cfg1.N) (r : Fin 5000) : t.val * 5000 + r.val < 100000 := by
  have ht : t.val < 20 := lt_of_lt_of_eq t.isLt (show cfg1.N = 20 from N_1)
  have hr := r.isLt
  omega

/-- The sum of a function of the rows over the 5000 rows of block s (zero past the last block). -/
def blkSum (f : Fin 100000 → EReal) (s : ℕ) : EReal :=
  if hs : s < 20 then ∑ r : Fin 5000, f ⟨s * 5000 + r.val, by have hr := r.isLt; omega⟩ else 0

/-- The sum over all 100000 rows, taken block by block over the 20 blocks of 5000 rows. -/
theorem sum_blocks (f : Fin 100000 → EReal) : ∑ s ∈ Finset.range 20, blkSum f s = ∑ p : Fin 100000, f p := by
  rw [Finset.sum_range (fun s => blkSum f s)]
  refine Eq.trans ?_ (ProductNT.sum_stretches 20 5000 f).symm
  refine Finset.sum_congr rfl fun s _ => ?_
  unfold blkSum
  rw [dif_pos s.isLt]

/-- The column sum of the activation block of point t is the block sum of the activations' column. -/
theorem blk_colSum (c : Dev nD) (t : Fin cfg1.N) (q : Fin 128) :
    ∑ r : Fin 5000, (k1_pay3 (iblk1 (F := Ideal) V c 0 t) (iblk1 (F := Ideal) V c 1 t) : S5000x128.Idx → EReal) (ix2 r q)
      = blkSum (fun p => actOf V c p q) t.val := by
  have ht : t.val < 20 := lt_of_lt_of_eq t.isLt (show cfg1.N = 20 from N_1)
  unfold blkSum
  rw [dif_pos ht]
  exact Finset.sum_congr rfl fun r _ => actBlk_apply V c t r q (row_lt t r)

/-- The column sum of squares of the activation block of point t likewise. -/
theorem blk_colSqSum (c : Dev nD) (t : Fin cfg1.N) (q : Fin 128) :
    ∑ r : Fin 5000, (k1_pay3 (iblk1 (F := Ideal) V c 0 t) (iblk1 (F := Ideal) V c 1 t) : S5000x128.Idx → EReal) (ix2 r q)
        * (k1_pay3 (iblk1 (F := Ideal) V c 0 t) (iblk1 (F := Ideal) V c 1 t) : S5000x128.Idx → EReal) (ix2 r q)
      = blkSum (fun p => actOf V c p q * actOf V c p q) t.val := by
  have ht : t.val < 20 := lt_of_lt_of_eq t.isLt (show cfg1.N = 20 from N_1)
  unfold blkSum
  rw [dif_pos ht]
  exact Finset.sum_congr rfl fun r _ => by rw [actBlk_apply V c t r q (row_lt t r)]

/-- After the first point the running row of sums holds the first block's column sums: the reset row is zero. -/
theorem sum_first (c : Dev nD) (t : Fin cfg1.N) (h0 : t.val % 20 = 0) (q : Fin 128) :
    ((outsAt1 (F := Ideal) V c t.val t.isLt).2.1 : S1x128.Idx → EReal) (ix2 (0 : Fin 1) q)
      = blkSum (fun p => actOf V c p q) t.val := by
  rw [outsAt1_A V c t h0]; dsimp only
  refine (congrFun (pieceA3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) (ix2 (0 : Fin 1) q)).trans ?_
  refine (pay4_apply (iblk1 (F := Ideal) V c 0 t) (iblk1 (F := Ideal) V c 1 t) (k1_pay1 (F := Ideal)) q).trans ?_
  rw [pay1_apply, zero_add]
  exact blk_colSum V c t q

/-- After a later point it holds what the point before left plus this block's column sums. -/
theorem sum_next (c : Dev nD) (t : Fin cfg1.N) (h0 : ¬t.val % 20 = 0) (q : Fin 128) :
    ((outsAt1 (F := Ideal) V c t.val t.isLt).2.1 : S1x128.Idx → EReal) (ix2 (0 : Fin 1) q)
      = ((outsAt1 (F := Ideal) V c (t.val - 1) (Nat.lt_of_le_of_lt (Nat.sub_le _ _) t.isLt)).2.1 : S1x128.Idx → EReal) (ix2 (0 : Fin 1) q)
        + blkSum (fun p => actOf V c p q) t.val := by
  rw [outsAt1_B V c t h0]; dsimp only
  refine (congrFun (pieceB3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  refine (pay4_apply (iblk1 (F := Ideal) V c 0 t) (iblk1 (F := Ideal) V c 1 t) (outsAt1 (F := Ideal) V c (t.val - 1) (Nat.lt_of_le_of_lt (Nat.sub_le _ _) t.isLt)).2.1 q).trans ?_
  rw [blk_colSum V c t q]

/-- The same two steps for the running row of sums of squares. -/
theorem sq_first (c : Dev nD) (t : Fin cfg1.N) (h0 : t.val % 20 = 0) (q : Fin 128) :
    ((outsAt1 (F := Ideal) V c t.val t.isLt).2.2 : S1x128.Idx → EReal) (ix2 (0 : Fin 1) q)
      = blkSum (fun p => actOf V c p q * actOf V c p q) t.val := by
  rw [outsAt1_A V c t h0]; dsimp only
  refine (congrFun (pieceA4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) (ix2 (0 : Fin 1) q)).trans ?_
  refine (pay5_apply (iblk1 (F := Ideal) V c 0 t) (iblk1 (F := Ideal) V c 1 t) (k1_pay2 (F := Ideal)) q).trans ?_
  rw [pay2_apply, zero_add]
  exact blk_colSqSum V c t q

theorem sq_next (c : Dev nD) (t : Fin cfg1.N) (h0 : ¬t.val % 20 = 0) (q : Fin 128) :
    ((outsAt1 (F := Ideal) V c t.val t.isLt).2.2 : S1x128.Idx → EReal) (ix2 (0 : Fin 1) q)
      = ((outsAt1 (F := Ideal) V c (t.val - 1) (Nat.lt_of_le_of_lt (Nat.sub_le _ _) t.isLt)).2.2 : S1x128.Idx → EReal) (ix2 (0 : Fin 1) q)
        + blkSum (fun p => actOf V c p q * actOf V c p q) t.val := by
  rw [outsAt1_B V c t h0]; dsimp only
  refine (congrFun (pieceB4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  refine (pay5_apply (iblk1 (F := Ideal) V c 0 t) (iblk1 (F := Ideal) V c 1 t) (outsAt1 (F := Ideal) V c (t.val - 1) (Nat.lt_of_le_of_lt (Nat.sub_le _ _) t.isLt)).2.2 q).trans ?_
  rw [blk_colSqSum V c t q]

/-- THE INVARIANT: after point n the running row of sums holds, at each column, the sum of the block sums of blocks 0..n. -/
theorem sum_inv (c : Dev nD) (q : Fin 128) : ∀ (n : ℕ) (h : n < cfg1.N),
    ((outsAt1 (F := Ideal) V c n h).2.1 : S1x128.Idx → EReal) (ix2 (0 : Fin 1) q)
      = ∑ s ∈ Finset.range (n + 1), blkSum (fun p => actOf V c p q) s
  | 0, h => by
    rw [Finset.sum_range_one]
    exact sum_first V c ⟨0, h⟩ rfl q
  | n + 1, h => by
    have hN : cfg1.N = 20 := N_1
    have hB : ¬(⟨n + 1, h⟩ : Fin cfg1.N).val % 20 = 0 := by dsimp only; omega
    rw [Finset.sum_range_succ, ← sum_inv c q n (Nat.lt_of_succ_lt h)]
    exact sum_next V c ⟨n + 1, h⟩ hB q

/-- and the running row of sums of squares the sum of the blocks' sums of squares. -/
theorem sq_inv (c : Dev nD) (q : Fin 128) : ∀ (n : ℕ) (h : n < cfg1.N),
    ((outsAt1 (F := Ideal) V c n h).2.2 : S1x128.Idx → EReal) (ix2 (0 : Fin 1) q)
      = ∑ s ∈ Finset.range (n + 1), blkSum (fun p => actOf V c p q * actOf V c p q) s
  | 0, h => by
    rw [Finset.sum_range_one]
    exact sq_first V c ⟨0, h⟩ rfl q
  | n + 1, h => by
    have hN : cfg1.N = 20 := N_1
    have hB : ¬(⟨n + 1, h⟩ : Fin cfg1.N).val % 20 = 0 := by dsimp only; omega
    rw [Finset.sum_range_succ, ← sq_inv c q n (Nat.lt_of_succ_lt h)]
    exact sq_next V c ⟨n + 1, h⟩ hB q

/-! ### From the blocks written back to the arrays -/

/-- The last point of the grid. -/
abbrev tLast : Fin cfg1.N := ⟨19, by rw [show cfg1.N = 20 from N_1]; decide⟩

/-- What the activation array ends holding: at each entry the activation of its row and column. -/
abbrev G2 (c : Dev nD) : S100000x128.Idx → EReal := fun i => actOf V c (i 0) (i 1)

/-- What point t writes back to the activation array is block t of it. -/
theorem flushed2_eq (c : Dev nD) (t : Fin cfg1.N) :
    (dat1 (F := Ideal) V c).flushed 2 t = ((cfg1.win 2).blk t).view.read (Elt Ideal) (G2 V c) := by
  obtain ⟨-, -, -, -, e0, e1, -⟩ := idx_facts1 t
  show (cfg1.win 2).cut (grid1.coords t) ((dat1 (F := Ideal) V c).after 2 t) = _
  rw [after1_2]
  refine funext fun (j : S5000x128.Idx) => ?_
  obtain ⟨r, q, rfl⟩ : ∃ (r : Fin 5000) (q : Fin 128), j = ix2 r q := ⟨j 0, j 1, eq_ix2 j⟩
  rw [View.read_apply]
  show ((outsAt1 (F := Ideal) V c t.val t.isLt).1 : S5000x128.Idx → EReal) (ix2 r q)
    = G2 V c (((cfg1.win 2).blk t).view.emb (ix2 r q))
  rw [out2_apply V c t r q (row_lt t r)]
  refine congrArg₂ (actOf V c) (Fin.ext ?_) (Fin.ext ?_)
  · show t.val * 5000 + r.val = win1_2.index t (0 : Fin 2) * 5000 + 1 * r.val
    rw [e0]; omega
  · show q.val = win1_2.index t (1 : Fin 2) * 128 + 1 * q.val
    rw [e1]; omega

/-- The blocks of the 20 points tile the activation array, so it ends holding the activations. -/
theorem final2 (c : Dev nD) : (dat1 (F := Ideal) V c).arrAt 2 cfg1.N = G2 V c :=
  (dat1 (F := Ideal) V c).arrAt_eq_of_cover 2 (G2 V c) (fun t _ => flushed2_eq V c t) fun (i : S100000x128.Idx) => by
    have hi0 : (i 0).val < 100000 := (i 0).isLt
    have hi1 : (i 1).val < 128 := (i 1).isLt
    have hN : cfg1.N = 20 := N_1
    have ht : (i 0).val / 5000 < cfg1.N := by omega
    obtain ⟨-, -, -, -, e0, e1, -⟩ := idx_facts1 ⟨(i 0).val / 5000, ht⟩
    refine ⟨⟨(i 0).val / 5000, ht⟩, flush1_2 _, ?_⟩
    show i ∈ ((View.whole main_v54_0).slice (win1_2.rect ⟨(i 0).val / 5000, ht⟩)).set
    rw [View.set_slice_whole, Rect.mem_set_unit]
    intro a
    match a with
    | ⟨0, _⟩ =>
      show win1_2.index ⟨(i 0).val / 5000, ht⟩ (0 : Fin 2) * 5000 ≤ (i 0).val
        ∧ (i 0).val < win1_2.index ⟨(i 0).val / 5000, ht⟩ (0 : Fin 2) * 5000 + 5000
      rw [e0]; dsimp only; omega
    | ⟨1, _⟩ =>
      show win1_2.index ⟨(i 0).val / 5000, ht⟩ (1 : Fin 2) * 128 ≤ (i 1).val
        ∧ (i 1).val < win1_2.index ⟨(i 0).val / 5000, ht⟩ (1 : Fin 2) * 128 + 128
      rw [e1]; omega

/-- What the two single-row arrays end holding: the running rows after the last point. -/
abbrev G3 (c : Dev nD) : S1x128.Idx → EReal := (outsAt1 (F := Ideal) V c tLast.val tLast.isLt).2.1
abbrev G4 (c : Dev nD) : S1x128.Idx → EReal := (outsAt1 (F := Ideal) V c tLast.val tLast.isLt).2.2

/-- The one write-back of the row of sums, after the last point, writes the whole row. -/
theorem flushed3_eq (c : Dev nD) (t : Fin cfg1.N) (hf : (cfg1.win 3).flush t = true) :
    (dat1 (F := Ideal) V c).flushed 3 t = ((cfg1.win 3).blk t).view.read (Elt Ideal) (G3 V c) := by
  have hN : cfg1.N = 20 := N_1
  have h19 : t.val = 19 := by have := (flush1_3 t).mp hf; have := t.isLt; omega
  obtain rfl : t = tLast := Fin.ext h19
  obtain ⟨-, -, -, -, -, -, e0, e1, -⟩ := idx_facts1 tLast
  show (cfg1.win 3).cut (grid1.coords tLast) ((dat1 (F := Ideal) V c).after 3 tLast) = _
  rw [after1_3]
  refine funext fun (j : S1x128.Idx) => ?_
  rw [View.read_apply]
  show G3 V c j = G3 V c (((cfg1.win 3).blk tLast).view.emb j)
  refine congrArg (G3 V c) (funext fun a => Fin.ext ?_)
  match a with
  | ⟨0, _⟩ => show (j 0).val = win1_3.index tLast (0 : Fin 2) * 1 + 1 * (j 0).val; rw [e0]; omega
  | ⟨1, _⟩ => show (j 1).val = win1_3.index tLast (1 : Fin 2) * 128 + 1 * (j 1).val; rw [e1]; omega

/-- So the row of sums ends holding the running row after the last point. -/
theorem final3 (c : Dev nD) : (dat1 (F := Ideal) V c).arrAt 3 cfg1.N = G3 V c :=
  (dat1 (F := Ideal) V c).arrAt_eq_of_cover 3 (G3 V c) (flushed3_eq V c) fun (i : S1x128.Idx) => by
    have hi0 : (i 0).val < 1 := (i 0).isLt
    have hi1 : (i 1).val < 128 := (i 1).isLt
    obtain ⟨-, -, -, -, -, -, e0, e1, -⟩ := idx_facts1 tLast
    refine ⟨tLast, (flush1_3 tLast).mpr rfl, ?_⟩
    show i ∈ ((View.whole main_v54_1).slice (win1_3.rect tLast)).set
    rw [View.set_slice_whole, Rect.mem_set_unit]
    intro a
    match a with
    | ⟨0, _⟩ =>
      show win1_3.index tLast (0 : Fin 2) * 1 ≤ (i 0).val ∧ (i 0).val < win1_3.index tLast (0 : Fin 2) * 1 + 1
      rw [e0]; omega
    | ⟨1, _⟩ =>
      show win1_3.index tLast (1 : Fin 2) * 128 ≤ (i 1).val ∧ (i 1).val < win1_3.index tLast (1 : Fin 2) * 128 + 128
      rw [e1]; omega

/-- The one write-back of the row of sums of squares, after the last point, writes the whole row. -/
theorem flushed4_eq (c : Dev nD) (t : Fin cfg1.N) (hf : (cfg1.win 4).flush t = true) :
    (dat1 (F := Ideal) V c).flushed 4 t = ((cfg1.win 4).blk t).view.read (Elt Ideal) (G4 V c) := by
  have hN : cfg1.N = 20 := N_1
  have h19 : t.val = 19 := by have := (flush1_4 t).mp hf; have := t.isLt; omega
  obtain rfl : t = tLast := Fin.ext h19
  obtain ⟨-, -, -, -, -, -, -, -, e0, e1⟩ := idx_facts1 tLast
  show (cfg1.win 4).cut (grid1.coords tLast) ((dat1 (F := Ideal) V c).after 4 tLast) = _
  rw [after1_4]
  refine funext fun (j : S1x128.Idx) => ?_
  rw [View.read_apply]
  show G4 V c j = G4 V c (((cfg1.win 4).blk tLast).view.emb j)
  refine congrArg (G4 V c) (funext fun a => Fin.ext ?_)
  match a with
  | ⟨0, _⟩ => show (j 0).val = win1_4.index tLast (0 : Fin 2) * 1 + 1 * (j 0).val; rw [e0]; omega
  | ⟨1, _⟩ => show (j 1).val = win1_4.index tLast (1 : Fin 2) * 128 + 1 * (j 1).val; rw [e1]; omega

/-- So the row of sums of squares ends holding the running row after the last point. -/
theorem final4 (c : Dev nD) : (dat1 (F := Ideal) V c).arrAt 4 cfg1.N = G4 V c :=
  (dat1 (F := Ideal) V c).arrAt_eq_of_cover 4 (G4 V c) (flushed4_eq V c) fun (i : S1x128.Idx) => by
    have hi0 : (i 0).val < 1 := (i 0).isLt
    have hi1 : (i 1).val < 128 := (i 1).isLt
    obtain ⟨-, -, -, -, -, -, -, -, e0, e1⟩ := idx_facts1 tLast
    refine ⟨tLast, (flush1_4 tLast).mpr rfl, ?_⟩
    show i ∈ ((View.whole main_v54_2).slice (win1_4.rect tLast)).set
    rw [View.set_slice_whole, Rect.mem_set_unit]
    intro a
    match a with
    | ⟨0, _⟩ =>
      show win1_4.index tLast (0 : Fin 2) * 1 ≤ (i 0).val ∧ (i 0).val < win1_4.index tLast (0 : Fin 2) * 1 + 1
      rw [e0]; omega
    | ⟨1, _⟩ =>
      show win1_4.index tLast (1 : Fin 2) * 128 ≤ (i 1).val ∧ (i 1).val < win1_4.index tLast (1 : Fin 2) * 128 + 128
      rw [e1]; omega

end Region

end Region1

open Region1

/-- The activation array after the region, entry by entry. -/
theorem region1_act (V : (c : Dev nD) → (b : Ref sig .tc) → Buf (Elt Ideal) ((c : Thread nD τ).loc b)) (c : Dev nD) (p : Fin 100000) (q : Fin 128) :
    ((dat1 (F := Ideal) V c).arrAt 2 cfg1.N : S100000x128.Idx → EReal) (ix2 p q)
      = act (V c main_v52 : S100000x128.Idx → EReal) (fun q => (V c main_v53 : S1x128.Idx → EReal) (ix2 (0 : Fin 1) q)) p q :=
  congrFun (final2 V c) (ix2 p q)

/-- The running row of column sums after the region is the column sum over all rows. -/
theorem region1_sum (V : (c : Dev nD) → (b : Ref sig .tc) → Buf (Elt Ideal) ((c : Thread nD τ).loc b)) (c : Dev nD) (q : Fin 128) :
    ((dat1 (F := Ideal) V c).arrAt 3 cfg1.N : S1x128.Idx → EReal) (ix2 (0 : Fin 1) q)
      = colSum (act (V c main_v52 : S100000x128.Idx → EReal) (fun q => (V c main_v53 : S1x128.Idx → EReal) (ix2 (0 : Fin 1) q))) q :=
  (congrFun (final3 V c) (ix2 (0 : Fin 1) q)).trans
    ((sum_inv V c q tLast.val tLast.isLt).trans (sum_blocks fun p => actOf V c p q))

/-- The running row of column sums of squares after the region is the column sum of squares over all rows. -/
theorem region1_sqsum (V : (c : Dev nD) → (b : Ref sig .tc) → Buf (Elt Ideal) ((c : Thread nD τ).loc b)) (c : Dev nD) (q : Fin 128) :
    ((dat1 (F := Ideal) V c).arrAt 4 cfg1.N : S1x128.Idx → EReal) (ix2 (0 : Fin 1) q)
      = colSqSum (act (V c main_v52 : S100000x128.Idx → EReal) (fun q => (V c main_v53 : S1x128.Idx → EReal) (ix2 (0 : Fin 1) q))) q :=
  (congrFun (final4 V c) (ix2 (0 : Fin 1) q)).trans
    ((sq_inv V c q tLast.val tLast.isLt).trans (sum_blocks fun p => actOf V c p q * actOf V c p q))

end Cert.Gcn

end
-- ==== Proof.Region2.lean ====
/-
  The third kernel region's value. Over a grid of 20 row blocks of 5000 rows, the body subtracts the mean row from its
  block of activations, multiplies by the reciprocal square root of (variance row + ε), by the scale row γ, and adds the
  shift row β; the blocks tile the result, so the result array after the region is that expression entry by entry.
-/
import proofs.«145998_j90606630076672_1_alg».proof.Proof.Gen.KernelIdeal.Frame
import proofs.«145998_j90606630076672_1_alg».proof.Proof.Spec
import Idealize.ShloMosaic.Lib.Pipeline.Value
import Idealize.ShloMosaic.Lib.ValueIdx

set_option maxRecDepth 16384

noncomputable section

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offset of a whole-block access. -/
private theorem offZero : (![0, 0] : Fin 2 → Nat) = fun _ => 0 := funext fun a => by fin_cases a <;> rfl

/-- A feature row spread over a block of rows reads, at row r and column q, the row's entry at column q. -/
private theorem row_spread (x : Vec Ideal S1x128 .f32) (r : Fin 5000) (q : Fin 128) :
    (broadcastTo S5000x128 x broadcasts_S1x128_S5000x128 : S5000x128.Idx → EReal) (ix2 r q) = x (ix2 (0 : Fin 1) q) := by
  refine broadcastTo_apply x _ (ix2 r q) (ix2 (0 : Fin 1) q) (fun a => ?_)
  match a with
  | ⟨0, _⟩ => rfl
  | ⟨1, _⟩ => rfl

/-- The body's stored block, entry by entry. -/
private theorem pay_apply (v0 : Vec Ideal S1x128 .f32) (v5 : Vec Ideal S5000x128 .f32) (v7 v13 v17 : Vec Ideal S1x128 .f32)
    (r : Fin 5000) (q : Fin 128) :
    (k2_pay1 v0 v5 v7 v13 v17 : S5000x128.Idx → EReal) (ix2 r q)
      = affine (v5 (ix2 r q)) (v7 (ix2 (0 : Fin 1) q)) (v0 (ix2 (0 : Fin 1) q)) (v13 (ix2 (0 : Fin 1) q)) (v17 (ix2 (0 : Fin 1) q)) := by
  unfold k2_pay1 affine epsF
  simp only [shapeCast_self]
  rw [addf_apply, mulf_apply, mulf_apply, subf_apply, row_spread, row_spread, row_spread, row_spread]
  rfl

/-- One entry of the stored block, when the activation block's entry is the activation array's entry at i, the column of i
    is the column inside the block, and the four row blocks are the four row arrays. -/
private theorem block_entry (x0 : Vec Ideal S5000x128 .f32) (x1 x2 x3 x4 : Vec Ideal S1x128 .f32)
    (a : S100000x128.Idx → EReal) (mu va g b : S1x128.Idx → EReal) (i : S100000x128.Idx) (j : S5000x128.Idx)
    (hq : i 1 = j 1) (h0 : x0 j = a i) (h1 : x1 = mu) (h2 : x2 = va) (h3 : x3 = g) (h4 : x4 = b) :
    (k2_pay1 x2 x0 x1 x3 x4 : S5000x128.Idx → EReal) j
      = affine (a i) (mu (ix2 (0 : Fin 1) (i 1))) (va (ix2 (0 : Fin 1) (i 1))) (g (ix2 (0 : Fin 1) (i 1))) (b (ix2 (0 : Fin 1) (i 1))) := by
  subst h1 h2 h3 h4
  obtain ⟨r, q, rfl⟩ : ∃ (r : Fin 5000) (q : Fin 128), j = ix2 r q := ⟨j 0, j 1, eq_ix2 j⟩
  rw [pay_apply, h0, hq]

/-- The result array's intended contents: every entry normalised by its column's mean, variance, scale and shift. -/
private abbrev target (V : (c : Dev nD) → (b : Ref sig .tc) → Buf (Elt Ideal) ((c : Thread nD τ).loc b)) (c : Dev nD) :
    S100000x128.Idx → EReal := fun i =>
  affine ((V c main_v54_0 : S100000x128.Idx → EReal) i) ((V c main_v65 : S1x128.Idx → EReal) (ix2 (0 : Fin 1) (i 1)))
    ((V c main_v66 : S1x128.Idx → EReal) (ix2 (0 : Fin 1) (i 1))) ((V c main_v67 : S1x128.Idx → EReal) (ix2 (0 : Fin 1) (i 1)))
    ((V c main_v68 : S1x128.Idx → EReal) (ix2 (0 : Fin 1) (i 1)))

/-- The index maps over the grid: the activation and result windows take row block t, the four row windows their one block. -/
private theorem idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point t writes back is block t of the intended contents. -/
private theorem flushed_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal) (target V c) := by
  show (cfg2.win 5).cut (grid2.coords t) ((dat2 V c).after 5 t) = _
  rw [after2_5]
  unfold out2_5
  rw [View.canon_unit_zero offZero]
  simp only [View.ld_unit_zero (S := S5000x128) offZero, View.ld_unit_zero (S := S1x128) offZero]
  obtain ⟨e00, e01, e50, e51, e10, e11, e20, e21, e30, e31, e40, e41⟩ := idx_facts t
  funext j
  refine block_entry (iblk2 V c 0 t) (iblk2 V c 1 t) (iblk2 V c 2 t) (iblk2 V c 3 t) (iblk2 V c 4 t)
    (V c main_v54_0) (V c main_v65) (V c main_v66) (V c main_v67) (V c main_v68) (((cfg2.win 5).blk t).view.emb j) j ?_ ?_ ?_ ?_ ?_ ?_
  · apply Fin.ext
    show win2_5.index t (1 : Fin 2) * 128 + 1 * (j 1).val = (j 1).val
    omega
  · show V c main_v54_0 (((cfg2.win 0).blk t).view.emb j) = V c main_v54_0 (((cfg2.win 5).blk t).view.emb j)
    refine congrArg (V c main_v54_0) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  · funext y
    show V c main_v65 (((cfg2.win 1).blk t).view.emb y) = V c main_v65 y
    refine congrArg (V c main_v65) (funext fun a => Fin.ext ?_)
    match a with
    | ⟨0, _⟩ => show win2_1.index t (0 : Fin 2) * 1 + 1 * (y 0).val = (y 0).val; omega
    | ⟨1, _⟩ => show win2_1.index t (1 : Fin 2) * 128 + 1 * (y 1).val = (y 1).val; omega
  · funext y
    show V c main_v66 (((cfg2.win 2).blk t).view.emb y) = V c main_v66 y
    refine congrArg (V c main_v66) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · funext y
    show V c main_v67 (((cfg2.win 3).blk t).view.emb y) = V c main_v67 y
    refine congrArg (V c main_v67) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_v68 (((cfg2.win 4).blk t).view.emb y) = V c main_v68 y
    refine congrArg (V c main_v68) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega

/-- An index of the result array is in point t's block iff each coordinate is in the block's range on its axis. -/
private theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v69).slice (win2_5.rect t)).set ↔ _
  rw [View.set_slice_whole, Rect.mem_set_unit]
  exact Iff.rfl

/-- The twenty row blocks tile the array: row r lies in block r / 5000, which is written back. -/
private theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨_, _, e50, e51, _⟩ := idx_facts ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    omega

/-- The result array after the region is the intended contents. -/
private theorem final (V : (c : Dev nD) → (b : Ref sig .tc) → Buf (Elt Ideal) ((c : Thread nD τ).loc b)) (c : Dev nD) :
    (dat2 (F := Ideal) V c).arrAt 5 cfg2.N = target V c :=
  (dat2 V c).arrAt_eq_of_cover 5 (target V c) (fun t _ => flushed_eq V c t) cover

/-- The result array after the region, entry by entry, from the five arrays the region found. -/
theorem region2_value (V : (c : Dev nD) → (b : Ref sig .tc) → Buf (Elt Ideal) ((c : Thread nD τ).loc b)) (c : Dev nD) (p : Fin 100000) (q : Fin 128) :
    ((dat2 (F := Ideal) V c).arrAt 5 cfg2.N : S100000x128.Idx → EReal) (ix2 p q)
      = affine ((V c main_v54_0 : S100000x128.Idx → EReal) (ix2 p q)) ((V c main_v65 : S1x128.Idx → EReal) (ix2 (0 : Fin 1) q))
          ((V c main_v66 : S1x128.Idx → EReal) (ix2 (0 : Fin 1) q)) ((V c main_v67 : S1x128.Idx → EReal) (ix2 (0 : Fin 1) q))
          ((V c main_v68 : S1x128.Idx → EReal) (ix2 (0 : Fin 1) q)) :=
  congrFun (final V c) (ix2 p q)

end Cert.Gcn

end
-- ==== Proof.HostK.lean ====
/-
  The kernel program's contents at its region boundaries, read back through the host operations between the regions.
  Region 0 finds x and W as launched. Region 1 finds, as its aggregate, `glue` of region 0's result and the launched
  edge list (the host operations between the two regions are, operation for operation, the reference's), and as its
  bias row the launched bias. Region 2 finds region 1's activations; as its mean row the column sums over the node
  count; as its variance row the mean of squares less the squared mean, clamped at zero; and γ, β as launched. The
  program's result buffer ends at region 2's result array.
-/
import proofs.«145998_j90606630076672_1_alg».proof.Proof.Gen.KernelIdeal.Frame
import proofs.«145998_j90606630076672_1_alg».proof.Proof.Spec
import proofs.«145998_j90606630076672_1_alg».proof.Proof.Glue

set_option maxRecDepth 16384

noncomputable section

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-! ### One stretch of host operations read at one reference, from arbitrary contents X before it -/

/-- The last stretch before region 1, at the bias row: a reshape of the bias argument. -/
private theorem v53_of (X : Valuation τ sig (Elt Ideal)) :
    (StableHlo.after hostOps1_4 X (Proc.devRef .tc main_v53) : S1x128.Idx → EReal)
      = shapeCast S1x128 (X (Proc.devRef .tc main_arg3) : S128.Idx → EReal) shapeCasts_S128_S1x128 := by
  dsimp only [hostOps1_4]
  after_results
  rfl

/-- The stretch before region 2 writes none of region 1's results, and reads: the mean row as the column sums over
    the count; the variance row as the sums of squares over the count, less the squared mean, clamped at zero; γ and β
    as reshapes of their arguments. -/
private theorem v54_0_of (X : Valuation τ sig (Elt Ideal)) :
    StableHlo.after hostOps2 X (Proc.devRef .tc main_v54_0) = X (Proc.devRef .tc main_v54_0) := by
  dsimp only [hostOps2]
  after_results

private theorem v65_of (X : Valuation τ sig (Elt Ideal)) :
    (StableHlo.after hostOps2 X (Proc.devRef .tc main_v65) : S1x128.Idx → EReal)
      = shapeCast S1x128 (shapeCast S128 (Host.divf (X (Proc.devRef .tc main_v54_1) : S1x128.Idx → EReal)
          (broadcastInDim S1x128 ![] bcast_S_S1x128 (constant (F := Ideal) S_ .f32 0x47C35000#32))) shapeCasts_S1x128_S128) shapeCasts_S128_S1x128 := by
  dsimp only [hostOps2]
  after_results
  rfl

private theorem v66_of (X : Valuation τ sig (Elt Ideal)) :
    (StableHlo.after hostOps2 X (Proc.devRef .tc main_v66) : S1x128.Idx → EReal)
      = shapeCast S1x128
          (maximumf
            (subf
              (Host.divf (shapeCast S128 (X (Proc.devRef .tc main_v54_2) : S1x128.Idx → EReal) shapeCasts_S1x128_S128)
                (broadcastInDim S128 ![] bcast_S_S128 (constant (F := Ideal) S_ .f32 0x47C35000#32)))
              (mulf
                (shapeCast S128 (Host.divf (X (Proc.devRef .tc main_v54_1) : S1x128.Idx → EReal)
                  (broadcastInDim S1x128 ![] bcast_S_S1x128 (constant (F := Ideal) S_ .f32 0x47C35000#32))) shapeCasts_S1x128_S128)
                (shapeCast S128 (Host.divf (X (Proc.devRef .tc main_v54_1) : S1x128.Idx → EReal)
                  (broadcastInDim S1x128 ![] bcast_S_S1x128 (constant (F := Ideal) S_ .f32 0x47C35000#32))) shapeCasts_S1x128_S128)))
            (broadcastInDim S128 ![] bcast_S_S128 (constant (F := Ideal) S_ .f32 0x00000000#32)))
          shapeCasts_S128_S1x128 := by
  dsimp only [hostOps2]
  after_results
  rfl

private theorem v67_of (X : Valuation τ sig (Elt Ideal)) :
    (StableHlo.after hostOps2 X (Proc.devRef .tc main_v67) : S1x128.Idx → EReal)
      = shapeCast S1x128 (X (Proc.devRef .tc main_arg4) : S128.Idx → EReal) shapeCasts_S128_S1x128 := by
  dsimp only [hostOps2]
  after_results
  rfl

private theorem v68_of (X : Valuation τ sig (Elt Ideal)) :
    (StableHlo.after hostOps2 X (Proc.devRef .tc main_v68) : S1x128.Idx → EReal)
      = shapeCast S1x128 (X (Proc.devRef .tc main_arg5) : S128.Idx → EReal) shapeCasts_S128_S1x128 := by
  dsimp only [hostOps2]
  after_results
  rfl

/-! ### A row of 128 reshaped to the one row of a 1 × 128 matrix, and back, read at a column -/

private theorem row_of_vec (x : S128.Idx → EReal) (q : Fin 128) :
    shapeCast S1x128 x shapeCasts_S128_S1x128 (ix2 (0 : Fin 1) q) = x (ix1 q) :=
  shapeCast_apply x _ _ (ix1 q) (by
    rw [Shape.rowMajor_val_one, Shape.rowMajor_val_two]; show q.val = 0 * 128 + q.val; omega)

private theorem vec_of_row (x : S1x128.Idx → EReal) (q : Fin 128) :
    shapeCast S128 x shapeCasts_S1x128_S128 (ix1 q) = x (ix2 (0 : Fin 1) q) :=
  shapeCast_apply x _ _ (ix2 (0 : Fin 1) q) (by
    rw [Shape.rowMajor_val_one, Shape.rowMajor_val_two]; show 0 * 128 + q.val = q.val; omega)

/-! ### The arguments before regions 1 and 2 are as launched -/

/-- No operation of the named stretch writes the reference at hand: each operation writes one reference, and it is
    another one. -/
local macro "unwritten " ops:ident : tactic => `(tactic| (
  refine List.forall_iff_forall_mem.mp ?_
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- A reference that region 0 does not hold and that no operation of the first four stretches writes is, before the
    fifth stretch, as launched. -/
private theorem W5_of_unwritten (c : Dev nD) (b : Ref sig .tc)
    (h0 : ∀ op ∈ (hostOps1 : List (HloOp τ sig (Elt Ideal))), Proc.devRef .tc b ∉ op.writes)
    (h1 : ∀ op ∈ (hostOps1_1 : List (HloOp τ sig (Elt Ideal))), Proc.devRef .tc b ∉ op.writes)
    (h2 : ∀ op ∈ (hostOps1_2 : List (HloOp τ sig (Elt Ideal))), Proc.devRef .tc b ∉ op.writes)
    (h3 : ∀ op ∈ (hostOps1_3 : List (HloOp τ sig (Elt Ideal))), Proc.devRef .tc b ∉ op.writes)
    (hw : ∀ w, Pipeline.arrRef spec0 w ≠ b) :
    W5 m ρ c (Proc.devRef .tc b) = m ((c : Thread nD τ).loc b) :=
  calc W5 m ρ c (Proc.devRef .tc b)
    _ = W4 m ρ c (Proc.devRef .tc b) := StableHlo.after_of_forall_not_mem _ _ h3
    _ = W3 m ρ c (Proc.devRef .tc b) := StableHlo.after_of_forall_not_mem _ _ h2
    _ = W2 m ρ c (Proc.devRef .tc b) := StableHlo.after_of_forall_not_mem _ _ h1
    _ = W1 m ρ c (Proc.devRef .tc b) := StableHlo.after_of_forall_not_mem _ _ h0
    _ = W0 m ρ c (Proc.devRef .tc b) := W1_of_ne m ρ c b hw
    _ = m ((c : Thread nD τ).loc b) := rfl

private theorem W5_arg3 (c : Dev nD) : W5 m ρ c (Proc.devRef .tc main_arg3) = m ((c : Thread nD τ).loc main_arg3) :=
  W5_of_unwritten m ρ c main_arg3 (by unwritten hostOps1) (by unwritten hostOps1_1) (by unwritten hostOps1_2)
    (by unwritten hostOps1_3) (by decide)

private theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_forall_not_mem _ _ (by unwritten hostOps1_4)
    _ = m ((c : Thread nD τ).loc main_arg4) :=
        W5_of_unwritten m ρ c main_arg4 (by unwritten hostOps1) (by unwritten hostOps1_1) (by unwritten hostOps1_2)
          (by unwritten hostOps1_3) (by decide)

private theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_forall_not_mem _ _ (by unwritten hostOps1_4)
    _ = m ((c : Thread nD τ).loc main_arg5) :=
        W5_of_unwritten m ρ c main_arg5 (by unwritten hostOps1) (by unwritten hostOps1_1) (by unwritten hostOps1_2)
          (by unwritten hostOps1_3) (by decide)

/-! ### The operations between regions 0 and 1, stretch by stretch, at any float family

Reading the five stretches from contents X: every intermediate value that a later stretch reads is the reference's
stage of the same name at the edge list X holds, and the transformed features (region 0's result) pass through
unwritten until the last stretch gathers them. -/

section Aggregate

variable {F : FTy → Type} [FloatOps F]

/-! First stretch: both index columns with the self-loops appended, the edge weights, the degrees, and the test that
    a degree is positive, as the reference's stages; the features are not written. -/

set_option maxHeartbeats 1000000 in
private theorem s1_v0 (X : Valuation τ sig (Elt F)) :
    StableHlo.after hostOps1 X (Proc.devRef .tc main_v0) = X (Proc.devRef .tc main_v0) := by
  dsimp only [hostOps1]
  after_results

set_option maxHeartbeats 1000000 in
private theorem s1_v8 (X : Valuation τ sig (Elt F)) :
    StableHlo.after hostOps1 X (Proc.devRef .tc main_v8) = Cert.ReferenceIdeal.Read.val_main_v8 (F := F) (X (Proc.devRef .tc main_arg1)) := by
  dsimp only [hostOps1]
  after_results <;> rfl

set_option maxHeartbeats 1000000 in
private theorem s1_v9 (X : Valuation τ sig (Elt F)) :
    StableHlo.after hostOps1 X (Proc.devRef .tc main_v9) = Cert.ReferenceIdeal.Read.val_main_v9 (F := F) (X (Proc.devRef .tc main_arg1)) := by
  dsimp only [hostOps1]
  after_results <;> rfl

set_option maxHeartbeats 1000000 in
private theorem s1_v11 (X : Valuation τ sig (Elt F)) :
    StableHlo.after hostOps1 X (Proc.devRef .tc main_v11) = Cert.ReferenceIdeal.Read.val_main_v11 (F := F) (X (Proc.devRef .tc main_arg1)) := by
  dsimp only [hostOps1]
  after_results <;> rfl

set_option maxHeartbeats 1000000 in
private theorem s1_v14 (X : Valuation τ sig (Elt F)) :
    StableHlo.after hostOps1 X (Proc.devRef .tc main_v14) = Cert.ReferenceIdeal.Read.val_main_v14 (F := F) (X (Proc.devRef .tc main_arg1)) := by
  dsimp only [hostOps1]
  after_results <;> rfl

set_option maxHeartbeats 1000000 in
private theorem s1_v16 (X : Valuation τ sig (Elt F)) :
    StableHlo.after hostOps1 X (Proc.devRef .tc main_v16) = Cert.ReferenceIdeal.Read.val_main_v16 (F := F) (X (Proc.devRef .tc main_arg1)) := by
  dsimp only [hostOps1]
  after_results <;> rfl

set_option maxHeartbeats 1000000 in
private theorem s1_cst_2 (X : Valuation τ sig (Elt F)) :
    StableHlo.after hostOps1 X (Proc.devRef .tc main_cst_2) = Cert.ReferenceIdeal.Read.val_main_cst_2 (F := F) := by
  dsimp only [hostOps1]
  after_results <;> rfl

/-! Second stretch: a degree that is not positive is replaced by one. -/

private theorem frames2 (Y : Valuation τ sig (Elt F)) :
    StableHlo.after hostOps1_1 Y (Proc.devRef .tc main_v0) = Y (Proc.devRef .tc main_v0)
    ∧ StableHlo.after hostOps1_1 Y (Proc.devRef .tc main_v8) = Y (Proc.devRef .tc main_v8)
    ∧ StableHlo.after hostOps1_1 Y (Proc.devRef .tc main_v9) = Y (Proc.devRef .tc main_v9)
    ∧ StableHlo.after hostOps1_1 Y (Proc.devRef .tc main_v11) = Y (Proc.devRef .tc main_v11)
    ∧ StableHlo.after hostOps1_1 Y (Proc.devRef .tc main_v14) = Y (Proc.devRef .tc main_v14) := by
  dsimp only [hostOps1_1]
  refine ⟨?_, ?_, ?_, ?_, ?_⟩ <;> after_results

private theorem stage2 (Y : Valuation τ sig (Elt F)) (ei : (⟨Cert.ReferenceIdeal.S2x1600000, .i32⟩ : BufTy).Contents (Elt F))
    (h14 : Y (Proc.devRef .tc main_v14) = Cert.ReferenceIdeal.Read.val_main_v14 (F := F) ei)
    (h16 : Y (Proc.devRef .tc main_v16) = Cert.ReferenceIdeal.Read.val_main_v16 (F := F) ei)
    (hc : Y (Proc.devRef .tc main_cst_2) = Cert.ReferenceIdeal.Read.val_main_cst_2 (F := F)) :
    StableHlo.after hostOps1_1 Y (Proc.devRef .tc main_v17) = Cert.ReferenceIdeal.Read.val_main_v17 (F := F) ei := by
  dsimp only [hostOps1_1]
  after_results
  rw [h14, h16, hc]
  rfl

/-! Third stretch: the reciprocal square root of the degree, and again the test that the degree is positive. -/

private theorem frames3 (Y : Valuation τ sig (Elt F)) :
    StableHlo.after hostOps1_2 Y (Proc.devRef .tc main_v0) = Y (Proc.devRef .tc main_v0)
    ∧ StableHlo.after hostOps1_2 Y (Proc.devRef .tc main_v8) = Y (Proc.devRef .tc main_v8)
    ∧ StableHlo.after hostOps1_2 Y (Proc.devRef .tc main_v9) = Y (Proc.devRef .tc main_v9)
    ∧ StableHlo.after hostOps1_2 Y (Proc.devRef .tc main_v11) = Y (Proc.devRef .tc main_v11) := by
  dsimp only [hostOps1_2]
  refine ⟨?_, ?_, ?_, ?_⟩ <;> after_results

private theorem stage3 (Y : Valuation τ sig (Elt F)) (ei : (⟨Cert.ReferenceIdeal.S2x1600000, .i32⟩ : BufTy).Contents (Elt F))
    (h14 : Y (Proc.devRef .tc main_v14) = Cert.ReferenceIdeal.Read.val_main_v14 (F := F) ei)
    (h17 : Y (Proc.devRef .tc main_v17) = Cert.ReferenceIdeal.Read.val_main_v17 (F := F) ei) :
    StableHlo.after hostOps1_2 Y (Proc.devRef .tc main_v19) = Cert.ReferenceIdeal.Read.val_main_v19 (F := F) ei
    ∧ StableHlo.after hostOps1_2 Y (Proc.devRef .tc main_v22) = Cert.ReferenceIdeal.Read.val_main_v22 (F := F) ei
    ∧ StableHlo.after hostOps1_2 Y (Proc.devRef .tc main_cst_5) = Cert.ReferenceIdeal.Read.val_main_cst_5 (F := F) := by
  dsimp only [hostOps1_2]
  refine ⟨?_, ?_, ?_⟩
  · after_results
    rw [h14]
    rfl
  · after_results
    rw [h17]
    rfl
  · after_results <;> rfl

/-! Fourth stretch: where the degree is not positive the normalisation is zero. -/

private theorem frames4 (Y : Valuation τ sig (Elt F)) :
    StableHlo.after hostOps1_3 Y (Proc.devRef .tc main_v0) = Y (Proc.devRef .tc main_v0)
    ∧ StableHlo.after hostOps1_3 Y (Proc.devRef .tc main_v8) = Y (Proc.devRef .tc main_v8)
    ∧ StableHlo.after hostOps1_3 Y (Proc.devRef .tc main_v9) = Y (Proc.devRef .tc main_v9)
    ∧ StableHlo.after hostOps1_3 Y (Proc.devRef .tc main_v11) = Y (Proc.devRef .tc main_v11) := by
  dsimp only [hostOps1_3]
  refine ⟨?_, ?_, ?_, ?_⟩ <;> after_results

private theorem stage4 (Y : Valuation τ sig (Elt F)) (ei : (⟨Cert.ReferenceIdeal.S2x1600000, .i32⟩ : BufTy).Contents (Elt F))
    (h19 : Y (Proc.devRef .tc main_v19) = Cert.ReferenceIdeal.Read.val_main_v19 (F := F) ei)
    (h22 : Y (Proc.devRef .tc main_v22) = Cert.ReferenceIdeal.Read.val_main_v22 (F := F) ei)
    (hc : Y (Proc.devRef .tc main_cst_5) = Cert.ReferenceIdeal.Read.val_main_cst_5 (F := F)) :
    StableHlo.after hostOps1_3 Y (Proc.devRef .tc main_v23) = Cert.ReferenceIdeal.Read.val_main_v23 (F := F) ei := by
  dsimp only [hostOps1_3]
  after_results
  rw [h19, h22, hc]
  rfl

/-! Fifth stretch: the weight of each edge, the gather of the features' rows by source, their product, and the
    scatter-add onto the targets: the aggregate of the features this stretch finds. -/

set_option maxHeartbeats 4000000 in
private theorem stage5 (Y : Valuation τ sig (Elt F)) (ei : (⟨Cert.ReferenceIdeal.S2x1600000, .i32⟩ : BufTy).Contents (Elt F))
    (h8 : Y (Proc.devRef .tc main_v8) = Cert.ReferenceIdeal.Read.val_main_v8 (F := F) ei)
    (h9 : Y (Proc.devRef .tc main_v9) = Cert.ReferenceIdeal.Read.val_main_v9 (F := F) ei)
    (h11 : Y (Proc.devRef .tc main_v11) = Cert.ReferenceIdeal.Read.val_main_v11 (F := F) ei)
    (h23 : Y (Proc.devRef .tc main_v23) = Cert.ReferenceIdeal.Read.val_main_v23 (F := F) ei) :
    StableHlo.after hostOps1_4 Y (Proc.devRef .tc main_v52) = glueF (F := F) (Y (Proc.devRef .tc main_v0)) ei := by
  dsimp only [hostOps1_4]
  after_results_simp
  rw [h8, h9, h11, h23]
  rfl

/-- The five stretches together: region 1's aggregate is the aggregate of the features and the edge list found
    before them. -/
private theorem agg_of (X : Valuation τ sig (Elt F)) :
    StableHlo.after hostOps1_4 (StableHlo.after hostOps1_3 (StableHlo.after hostOps1_2 (StableHlo.after hostOps1_1
      (StableHlo.after hostOps1 X)))) (Proc.devRef .tc main_v52)
      = glueF (F := F) (X (Proc.devRef .tc main_v0)) (X (Proc.devRef .tc main_arg1)) := by
  obtain ⟨b0, b8, b9, b11, b14⟩ := frames2 (StableHlo.after hostOps1 X)
  have b17 := stage2 (StableHlo.after hostOps1 X) (X (Proc.devRef .tc main_arg1)) (s1_v14 X) (s1_v16 X) (s1_cst_2 X)
  obtain ⟨c0, c8, c9, c11⟩ := frames3 (StableHlo.after hostOps1_1 (StableHlo.after hostOps1 X))
  obtain ⟨c19, c22, cc⟩ := stage3 (StableHlo.after hostOps1_1 (StableHlo.after hostOps1 X)) (X (Proc.devRef .tc main_arg1))
    (b14.trans (s1_v14 X)) b17
  obtain ⟨d0, d8, d9, d11⟩ := frames4 (StableHlo.after hostOps1_2 (StableHlo.after hostOps1_1 (StableHlo.after hostOps1 X)))
  have d23 := stage4 (StableHlo.after hostOps1_2 (StableHlo.after hostOps1_1 (StableHlo.after hostOps1 X)))
    (X (Proc.devRef .tc main_arg1)) c19 c22 cc
  rw [stage5 _ (X (Proc.devRef .tc main_arg1)) (d8.trans (c8.trans (b8.trans (s1_v8 X))))
    (d9.trans (c9.trans (b9.trans (s1_v9 X)))) (d11.trans (c11.trans (b11.trans (s1_v11 X)))) d23,
    d0, c0, b0, s1_v0 X]

end Aggregate

/-! ### The boundary contents -/

/-- Region 0 finds x and W as launched. -/
theorem entry0_x (c : Dev nD) : (V0 m ρ c main_arg0 : S100000x128.Idx → EReal) = m ((c : Thread nD τ).loc main_arg0) := by
  rfl
theorem entry0_w (c : Dev nD) : (V0 m ρ c main_arg2 : S128x128.Idx → EReal) = m ((c : Thread nD τ).loc main_arg2) := by
  rfl

/-- Region 1's aggregate is `glue` of region 0's result array and the launched edge list. -/
theorem entry1_agg (c : Dev nD) :
    (V6 m ρ c main_v52 : S100000x128.Idx → EReal)
      = glue ((dat0 (F := Ideal) (V0 m ρ) c).arrAt 2 cfg0.N) (m ((c : Thread nD τ).loc main_arg1)) := by
  have h0 : W1 m ρ c (Proc.devRef .tc main_v0) = (dat0 (F := Ideal) (V0 m ρ) c).arrAt 2 cfg0.N := W1_arr m ρ c 2
  have h1 : W1 m ρ c (Proc.devRef .tc main_arg1) = m ((c : Thread nD τ).loc main_arg1) :=
    W1_of_ne m ρ c main_arg1 (by decide)
  rw [glue_eq, ← h0, ← h1]
  exact agg_of (F := Ideal) (W1 m ρ c)
/-- Region 1's bias row is the launched bias. -/
theorem entry1_bias (c : Dev nD) (q : Fin 128) :
    (V6 m ρ c main_v53 : S1x128.Idx → EReal) (ix2 (0 : Fin 1) q) = (m ((c : Thread nD τ).loc main_arg3) : S128.Idx → EReal) (ix1 q) := by
  have e : (V6 m ρ c main_v53 : S1x128.Idx → EReal)
      = shapeCast S1x128 (W5 m ρ c (Proc.devRef .tc main_arg3) : S128.Idx → EReal) shapeCasts_S128_S1x128 := v53_of (W5 m ρ c)
  exact (congrFun e _).trans ((row_of_vec _ q).trans (congrFun (W5_arg3 m ρ c) _))

/-- Region 2's activations are region 1's result array; -/
theorem entry2_act (c : Dev nD) :
    (V8 m ρ c main_v54_0 : S100000x128.Idx → EReal) = (dat1 (F := Ideal) (V6 m ρ) c).arrAt 2 cfg1.N := by
  exact (v54_0_of (W7 m ρ c)).trans (W7_arr m ρ c 2)
/-- its mean row the column sums over the node count; -/
theorem entry2_mean (c : Dev nD) (q : Fin 128) :
    (V8 m ρ c main_v65 : S1x128.Idx → EReal) (ix2 (0 : Fin 1) q)
      = meanS (((dat1 (F := Ideal) (V6 m ρ) c).arrAt 3 cfg1.N : S1x128.Idx → EReal) (ix2 (0 : Fin 1) q)) := by
  rw [← W7_arr m ρ c 3]
  refine (congrFun (v65_of (W7 m ρ c)) _).trans ?_
  rw [row_of_vec, vec_of_row]
  rfl
/-- its variance row the mean of squares less the squared mean, clamped at zero; -/
theorem entry2_var (c : Dev nD) (q : Fin 128) :
    (V8 m ρ c main_v66 : S1x128.Idx → EReal) (ix2 (0 : Fin 1) q)
      = varS (((dat1 (F := Ideal) (V6 m ρ) c).arrAt 4 cfg1.N : S1x128.Idx → EReal) (ix2 (0 : Fin 1) q))
          (((dat1 (F := Ideal) (V6 m ρ) c).arrAt 3 cfg1.N : S1x128.Idx → EReal) (ix2 (0 : Fin 1) q)) := by
  rw [← W7_arr m ρ c 3, ← W7_arr m ρ c 4]
  refine (congrFun (v66_of (W7 m ρ c)) _).trans ?_
  rw [row_of_vec, maximumf_apply, subf_apply, mulf_apply, vec_of_row]
  show max (Ideal.div (shapeCast S128 _ shapeCasts_S1x128_S128 (ix1 q)) _ - _) _ = _
  rw [vec_of_row]
  rfl
/-- γ and β as launched. -/
theorem entry2_gamma (c : Dev nD) (q : Fin 128) :
    (V8 m ρ c main_v67 : S1x128.Idx → EReal) (ix2 (0 : Fin 1) q) = (m ((c : Thread nD τ).loc main_arg4) : S128.Idx → EReal) (ix1 q) := by
  exact (congrFun (v67_of (W7 m ρ c)) _).trans ((row_of_vec _ q).trans (congrFun (W7_arg4 m ρ c) _))
theorem entry2_beta (c : Dev nD) (q : Fin 128) :
    (V8 m ρ c main_v68 : S1x128.Idx → EReal) (ix2 (0 : Fin 1) q) = (m ((c : Thread nD τ).loc main_arg5) : S128.Idx → EReal) (ix1 q) := by
  exact (congrFun (v68_of (W7 m ρ c)) _).trans ((row_of_vec _ q).trans (congrFun (W7_arg5 m ρ c) _))

/-- The program's result buffer ends at region 2's result array. -/
theorem exit_out (c : Dev nD) :
    (W9 m ρ c (Proc.devRef .tc main_v69) : S100000x128.Idx → EReal) = (dat2 (F := Ideal) (V8 m ρ) c).arrAt 5 cfg2.N := by
  exact W9_arr m ρ c 5

end Cert.Gcn

end
-- ==== Proof.KValue.lean ====
/-
  The kernel program's result, entry by entry, in the specification's words. The result buffer ends at region 2's
  result array: (activation − mean) · rsqrt (variance + ε) · γ + β of what region 2 found; the activation is region 1's,
  of the aggregate `glue` of region 0's product `x · W` and the launched edge list, with the launched bias; the mean and
  the variance are the host's, from region 1's two running rows: the column sum over the node count, and the mean of
  squares less the squared mean, clamped at zero.
-/
import proofs.«145998_j90606630076672_1_alg».proof.Proof.Gen.KernelIdeal.Frame
import proofs.«145998_j90606630076672_1_alg».proof.Proof.Spec
import proofs.«145998_j90606630076672_1_alg».proof.Proof.Glue
import proofs.«145998_j90606630076672_1_alg».proof.Proof.Region0
import proofs.«145998_j90606630076672_1_alg».proof.Proof.Region1
import proofs.«145998_j90606630076672_1_alg».proof.Proof.Region2
import proofs.«145998_j90606630076672_1_alg».proof.Proof.HostK

set_option maxRecDepth 16384

noncomputable section

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- The activations the kernel program forms, from the launched arrays. -/
def actK (c : Dev nD) : Fin 100000 → Fin 128 → EReal :=
  act (glue (hmat (m ((c : Thread nD τ).loc main_arg0)) (m ((c : Thread nD τ).loc main_arg2))) (m ((c : Thread nD τ).loc main_arg1)))
    (fun q => (m ((c : Thread nD τ).loc main_arg3) : S128.Idx → EReal) (ix1 q))

/-- Region 1's aggregate and bias, as the specification's activation of the launched arrays. -/
theorem act_entry (c : Dev nD) :
    act (V6 m ρ c main_v52 : S100000x128.Idx → EReal) (fun q => (V6 m ρ c main_v53 : S1x128.Idx → EReal) (ix2 (0 : Fin 1) q))
      = actK m c := by
  unfold actK
  rw [entry1_agg m ρ c, region0_value (V0 m ρ) c, entry0_x m ρ c, entry0_w m ρ c]
  exact congrArg _ (funext fun q => entry1_bias m ρ c q)

/-- The kernel program's result at an entry. -/
theorem kernel_value (c : Dev nD) (p : Fin 100000) (q : Fin 128) :
    (W9 m ρ c (Proc.devRef .tc main_v69) : S100000x128.Idx → EReal) (ix2 p q)
      = outK (actK m c) ((m ((c : Thread nD τ).loc main_arg4) : S128.Idx → EReal) (ix1 q))
          ((m ((c : Thread nD τ).loc main_arg5) : S128.Idx → EReal) (ix1 q)) p q := by
  rw [exit_out m ρ c, region2_value (V8 m ρ) c p q, entry2_act m ρ c, region1_act (V6 m ρ) c p q, entry2_mean m ρ c q,
    entry2_var m ρ c q, region1_sum (V6 m ρ) c q, region1_sqsum (V6 m ρ) c q, entry2_gamma m ρ c q, entry2_beta m ρ c q,
    act_entry m ρ c]
  rfl

end Cert.Gcn

end
-- ==== Proof.lean ====
/-
  The certificate: a graph-convolution layer followed by batch normalisation, as three kernel regions among host
  operations, against its plain reference.

  Both programs form `h = x · W` (the kernel block by block over 20 row blocks, its operands narrowed to bf16 on the way,
  which changes nothing over the extended reals), aggregate rows of `h` over the edges with the symmetric degree
  weights (operation for operation the same host text: one function `glue` of `h` and the edge list), add the bias and
  clamp at zero. The kernel then keeps running column sums of the activations and of their squares across its grid,
  takes the variance as the mean of squares less the squared mean, clamped at zero, and normalises by the reciprocal
  square root; the reference takes the variance as the mean of the squared deviations and divides by the square root.
  For REAL activations these agree (the variance identity; the variance plus ε is a positive real): and the activations
  are real because the precondition makes x, W and the bias real, a product and an aggregate of reals are real.

  The three frames are the generated ones (the reference's is its run with the result dropped); nothing was rewritten
  by the idealisation, so `preserves` is trivial.
-/
import proofs.«145998_j90606630076672_1_alg».proof.Defs
import proofs.«145998_j90606630076672_1_alg».proof.Proof.Gen.Kernel
import proofs.«145998_j90606630076672_1_alg».proof.Proof.Gen.Kernel.Frame
import proofs.«145998_j90606630076672_1_alg».proof.Proof.Gen.KernelIdeal
import proofs.«145998_j90606630076672_1_alg».proof.Proof.Gen.KernelIdeal.Frame
import proofs.«145998_j90606630076672_1_alg».proof.Proof.Gen.ReferenceIdeal
import proofs.«145998_j90606630076672_1_alg».proof.Proof.Gen.Pre_finite_inputs
import proofs.«145998_j90606630076672_1_alg».proof.Proof.Spec
import proofs.«145998_j90606630076672_1_alg».proof.Proof.Finite
import proofs.«145998_j90606630076672_1_alg».proof.Proof.Glue
import proofs.«145998_j90606630076672_1_alg».proof.Proof.RefRun
import proofs.«145998_j90606630076672_1_alg».proof.Proof.RefValue
import proofs.«145998_j90606630076672_1_alg».proof.Proof.KRun
import proofs.«145998_j90606630076672_1_alg».proof.Proof.KValue
import Idealize.ShloMosaic.Adequacy
import Idealize.ShloMosaic.Init

noncomputable section

namespace Cert.Proof

open Idealize.ShloMosaic Idealize.ShloMosaic.TcCoe Idealize.ShloMosaic.ValueIdx Idealize.SL.Sem Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The activations are real when x, W and the bias are. -/
theorem actK_real (m : (ℓ : Loc Cert.KernelIdeal.nD Cert.KernelIdeal.τ Cert.KernelIdeal.sig) → Buf (Elt Ideal) ℓ)
    (hpre : Cert.Pre_KernelIdeal m) (c : Dev Cert.KernelIdeal.nD) (p : Fin 100000) (q : Fin 128) :
    ∃ r : ℝ, actK m c p q = (r : EReal) := by
  obtain ⟨hx, hw, hb⟩ := real_of_fn _ _ _ _ _ _ (hpre c)
  exact act_real _ _ (glue_real _ _ (hmat_real _ _ hx hw)) (fun q => hb (ix1 q)) p q

/-- Both programs end with the normalised layer output of their (agreeing) arguments. -/
theorem algebraic : Cert.algebraic_KernelIdeal_ReferenceIdeal := by
  intro m ρ m' ρ' hpre hagree
  refine ⟨fun c => fun i => outK (actK m c) (m ((c.tc : Thread Cert.KernelIdeal.nD Cert.KernelIdeal.τ).loc Cert.KernelIdeal.main_arg4) (ix1 (i 1)))
      (m ((c.tc : Thread Cert.KernelIdeal.nD Cert.KernelIdeal.τ).loc Cert.KernelIdeal.main_arg5) (ix1 (i 1))) (i 0) (i 1), ?_, ?_⟩
  · refine (θ_run Cert.KernelIdeal.defs _ _).mono (fun r h c => ⟨(h c).1.trans ?_, (h c).2⟩)
      (Cert.KernelIdeal.Gen.run_named (F := Ideal) m ρ)
    funext i
    exact (congrArg _ (eq_ix2 i)).trans (kernel_value m ρ c (i 0) (i 1))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1,
      (hagree c).2.2.2.2.1, (hagree c).2.2.2.2.2]
    funext i
    refine (congrArg _ (eq_ix2 i)).trans ((ref_value _ _ _ _ _ _ (i 0) (i 1)).trans ?_)
    exact (outK_eq_outR _ (actK_real m hpre c) _ _ (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
